-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x47 : S_.BroadcastsInDim S128x47 (![] : Fin 0 → Fin S128x47.rank)
  reducesTo_S128x47_S_d0_1 : S128x47.ReducesTo [0, 1] S_
  bcast_S_S47 : S_.BroadcastsInDim S47 (![] : Fin 0 → Fin S47.rank)
  reducesTo_S47_S_d0 : S47.ReducesTo [0] S_
  bcast_S_S640000 : S_.BroadcastsInDim S640000 (![] : Fin 0 → Fin S640000.rank)
  reducesTo_S640000_S_d0 : S640000.ReducesTo [0] S_

variable [Facts]

def fn_part3 {F : FTy → Type} [FloatOps F] (main_arg1 : IVec S640000 32) (main_v48 : IVec S_ 1) (main_v50 : IVec S640000 1) : IVec S_ 1 :=
  let main_c_19 : IVec S_ 1 := constantI S_ 1 1#1
  let main_v51 : IVec S_ 1 := (fun x v => Host.reduce IntOp.andi x v reducesTo_S640000_S_d0 h_S_) main_v50 main_c_19
  let main_v52 : IVec S_ 1 := andi main_v48 main_v51
  let main_c_20 : IVec S_ 32 := constantI S_ 32 40000#32
  let main_v53 : IVec S640000 32 := broadcastInDim S640000 ![] bcast_S_S640000 main_c_20
  let main_v54 : IVec S640000 1 := cmpi .slt main_arg1 main_v53
  let main_c_21 : IVec S_ 1 := constantI S_ 1 1#1
  let main_v55 : IVec S_ 1 := (fun x v => Host.reduce IntOp.andi x v reducesTo_S640000_S_d0 h_S_) main_v54 main_c_21
  let main_v56 : IVec S_ 1 := andi main_v52 main_v55
  main_v56

def fn_part2 {F : FTy → Type} [FloatOps F] (main_arg1 : IVec S640000 32) (main_arg9 : FVec F S128x47 .f32) (main_arg10 : FVec F S128x47 .f32) (main_arg11 : FVec F S47 .f32) (main_v33 : IVec S_ 1) : IVec S_ 1 :=
  let main_v34 : FVec F S128x47 .f32 := Host.absf main_arg9
  let main_cst_12 : FVec F S_ .f32 := constant S_ .f32 0x7F800000#32
  let main_v35 : FVec F S128x47 .f32 := broadcastInDim S128x47 ![] bcast_S_S128x47 main_cst_12
  let main_v36 : IVec S128x47 1 := cmpf .olt main_v34 main_v35
  let main_c_13 : IVec S_ 1 := constantI S_ 1 1#1
  let main_v37 : IVec S_ 1 := (fun x v => Host.reduce IntOp.andi x v reducesTo_S128x47_S_d0_1 h_S_) main_v36 main_c_13
  let main_v38 : IVec S_ 1 := andi main_v33 main_v37
  let main_v39 : FVec F S128x47 .f32 := Host.absf main_arg10
  let main_cst_14 : FVec F S_ .f32 := constant S_ .f32 0x7F800000#32
  let main_v40 : FVec F S128x47 .f32 := broadcastInDim S128x47 ![] bcast_S_S128x47 main_cst_14
  let main_v41 : IVec S128x47 1 := cmpf .olt main_v39 main_v40
  let main_c_15 : IVec S_ 1 := constantI S_ 1 1#1
  let main_v42 : IVec S_ 1 := (fun x v => Host.reduce IntOp.andi x v reducesTo_S128x47_S_d0_1 h_S_) main_v41 main_c_15
  let main_v43 : IVec S_ 1 := andi main_v38 main_v42
  let main_v44 : FVec F S47 .f32 := Host.absf main_arg11
  let main_cst_16 : FVec F S_ .f32 := constant S_ .f32 0x7F800000#32
  let main_v45 : FVec F S47 .f32 := broadcastInDim S47 ![] bcast_S_S47 main_cst_16
  let main_v46 : IVec S47 1 := cmpf .olt main_v44 main_v45
  let main_c_17 : IVec S_ 1 := constantI S_ 1 1#1
  let main_v47 : IVec S_ 1 := (fun x v => Host.reduce IntOp.andi x v reducesTo_S47_S_d0 h_S_) main_v46 main_c_17
  let main_v48 : IVec S_ 1 := andi main_v43 main_v47
  let main_c_18 : IVec S_ 32 := constantI S_ 32 0#32
  let main_v49 : IVec S640000 32 := broadcastInDim S640000 ![] bcast_S_S640000 main_c_18
  let main_v50 : IVec S640000 1 := cmpi .sge main_arg1 main_v49
  fn_part3 (F := F) main_arg1 main_v48 main_v50

def fn_part1 {F : FTy → Type} [FloatOps F] (main_arg1 : IVec S640000 32) (main_arg6 : FVec F S128x128 .f32) (main_arg7 : FVec F S128x128 .f32) (main_arg8 : FVec F S128 .f32) (main_arg9 : FVec F S128x47 .f32) (main_arg10 : FVec F S128x47 .f32) (main_arg11 : FVec F S47 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg9 main_arg10 main_arg11 main_v33

def fn {F : FTy → Type} [FloatOps F] (main_arg0 : FVec F S40000x128 .f32) (main_arg1 : IVec S640000 32) (main_arg2 : IVec S640000 32) (main_arg3 : FVec F S128x128 .f32) (main_arg4 : FVec F S128x128 .f32) (main_arg5 : FVec F S128 .f32) (main_arg6 : FVec F S128x128 .f32) (main_arg7 : FVec F S128x128 .f32) (main_arg8 : FVec F S128 .f32) (main_arg9 : FVec F S128x47 .f32) (main_arg10 : FVec F S128x47 .f32) (main_arg11 : FVec F S47 .f32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg6 main_arg7 main_arg8 main_arg9 main_arg10 main_arg11 main_v13 main_v16
-- ==== Kernel.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S1 : Shape := ⟨1, ![1]⟩
abbrev S1x1 : Shape := ⟨2, ![1, 1]⟩
abbrev S640000x128 : Shape := ⟨2, ![640000, 128]⟩
abbrev S1x128 : Shape := ⟨2, ![1, 128]⟩
abbrev S4000x128 : Shape := ⟨2, ![4000, 128]⟩
abbrev S4000x1 : Shape := ⟨2, ![4000, 1]⟩
abbrev S1x47 : Shape := ⟨2, ![1, 47]⟩
abbrev S40000x47 : Shape := ⟨2, ![40000, 47]⟩
abbrev S4000x47 : Shape := ⟨2, ![4000, 47]⟩

abbrev nBuf : Space → Nat
  | .hbm => 112
  | .vmem => 33
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .f32⟩
  | .hbm, ⟨19, _⟩ => ⟨S40000, .f32⟩
  | .hbm, ⟨20, _⟩ => ⟨S40000, .f32⟩
  | .hbm, ⟨21, _⟩ => ⟨S_, .f32⟩
  | .hbm, ⟨22, _⟩ => ⟨S40000, .f32⟩
  | .hbm, ⟨23, _⟩ => ⟨S40000, .f32⟩
  | .hbm, ⟨24, _⟩ => ⟨S40000x1, .f32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S1, .i32⟩
  | .hbm, ⟨34, _⟩ => ⟨S_, .i32⟩
  | .hbm, ⟨35, _⟩ => ⟨S640000x1, .i32⟩
  | .hbm, ⟨36, _⟩ => ⟨S640000x1, .i1⟩
  | .hbm, ⟨37, _⟩ => ⟨S1x1, .i32⟩
  | .hbm, ⟨38, _⟩ => ⟨S640000x1, .i32⟩
  | .hbm, ⟨39, _⟩ => ⟨S640000x1, .i1⟩
  | .hbm, ⟨40, _⟩ => ⟨S640000x1, .i1⟩
  | .hbm, ⟨41, _⟩ => ⟨S_, .i1⟩
  | .hbm, ⟨42, _⟩ => ⟨S640000, .i1⟩
  | .hbm, ⟨43, _⟩ => ⟨S640000x128, .f32⟩
  | .hbm, ⟨44, _⟩ => ⟨S640000x128, .i1⟩
  | .hbm, ⟨45, _⟩ => ⟨S_, .f32⟩
  | .hbm, ⟨46, _⟩ => ⟨S640000x128, .f32⟩
  | .hbm, ⟨47, _⟩ => ⟨S640000x128, .f32⟩
  | .hbm, ⟨48, _⟩ => ⟨S_, .f32⟩
  | .hbm, ⟨49, _⟩ => ⟨S40000x128, .f32⟩
  | .hbm, ⟨50, _⟩ => ⟨S640000x1, .i32⟩
  | .hbm, ⟨51, _⟩ => ⟨S40000x128, .f32⟩
  | .hbm, ⟨52, _⟩ => ⟨S1x128, .f32⟩
  | .hbm, ⟨53, _⟩ => ⟨S40000x128, .f32⟩
  | .hbm, ⟨54, _⟩ => ⟨S_, .i32⟩
  | .hbm, ⟨55, _⟩ => ⟨S640000, .i32⟩
  | .hbm, ⟨56, _⟩ => ⟨S640000, .i1⟩
  | .hbm, ⟨57, _⟩ => ⟨S_, .i32⟩
  | .hbm, ⟨58, _⟩ => ⟨S640000, .i32⟩
  | .hbm, ⟨59, _⟩ => ⟨S640000, .i32⟩
  | .hbm, ⟨60, _⟩ => ⟨S640000, .i32⟩
  | .hbm, ⟨61, _⟩ => ⟨S640000x1, .i32⟩
  | .hbm, ⟨62, _⟩ => ⟨S1, .i32⟩
  | .hbm, ⟨63, _⟩ => ⟨S_, .i32⟩
  | .hbm, ⟨64, _⟩ => ⟨S640000x1, .i32⟩
  | .hbm, ⟨65, _⟩ => ⟨S640000x1, .i1⟩
  | .hbm, ⟨66, _⟩ => ⟨S1x1, .i32⟩
  | .hbm, ⟨67, _⟩ => ⟨S640000x1, .i32⟩
  | .hbm, ⟨68, _⟩ => ⟨S640000x1, .i1⟩
  | .hbm, ⟨69, _⟩ => ⟨S640000x1, .i1⟩
  | .hbm, ⟨70, _⟩ => ⟨S_, .i1⟩
  | .hbm, ⟨71, _⟩ => ⟨S640000, .i1⟩
  | .hbm, ⟨72, _⟩ => ⟨S640000x128, .f32⟩
  | .hbm, ⟨73, _⟩ => ⟨S640000x128, .i1⟩
  | .hbm, ⟨74, _⟩ => ⟨S_, .f32⟩
  | .hbm, ⟨75, _⟩ => ⟨S640000x128, .f32⟩
  | .hbm, ⟨76, _⟩ => ⟨S640000x128, .f32⟩
  | .hbm, ⟨77, _⟩ => ⟨S_, .f32⟩
  | .hbm, ⟨78, _⟩ => ⟨S40000x128, .f32⟩
  | .hbm, ⟨79, _⟩ => ⟨S640000x1, .i32⟩
  | .hbm, ⟨80, _⟩ => ⟨S40000x128, .f32⟩
  | .hbm, ⟨81, _⟩ => ⟨S1x128, .f32⟩
  | .hbm, ⟨82, _⟩ => ⟨S40000x128, .f32⟩
  | .hbm, ⟨83, _⟩ => ⟨S_, .i32⟩
  | .hbm, ⟨84, _⟩ => ⟨S640000, .i32⟩
  | .hbm, ⟨85, _⟩ => ⟨S640000, .i1⟩
  | .hbm, ⟨86, _⟩ => ⟨S_, .i32⟩
  | .hbm, ⟨87, _⟩ => ⟨S640000, .i32⟩
  | .hbm, ⟨88, _⟩ => ⟨S640000, .i32⟩
  | .hbm, ⟨89, _⟩ => ⟨S640000, .i32⟩
  | .hbm, ⟨90, _⟩ => ⟨S640000x1, .i32⟩
  | .hbm, ⟨91, _⟩ => ⟨S1, .i32⟩
  | .hbm, ⟨92, _⟩ => ⟨S_, .i32⟩
  | .hbm, ⟨93, _⟩ => ⟨S640000x1, .i32⟩
  | .hbm, ⟨94, _⟩ => ⟨S640000x1, .i1⟩
  | .hbm, ⟨95, _⟩ => ⟨S1x1, .i32⟩
  | .hbm, ⟨96, _⟩ => ⟨S640000x1, .i32⟩
  | .hbm, ⟨97, _⟩ => ⟨S640000x1, .i1⟩
  | .hbm, ⟨98, _⟩ => ⟨S640000x1, .i1⟩
  | .hbm, ⟨99, _⟩ => ⟨S_, .i1⟩
  | .hbm, ⟨100, _⟩ => ⟨S640000, .i1⟩
  | .hbm, ⟨101, _⟩ => ⟨S640000x128, .f32⟩
  | .hbm, ⟨102, _⟩ => ⟨S640000x128, .i1⟩
  | .hbm, ⟨103, _⟩ => ⟨S_, .f32⟩
  | .hbm, ⟨104, _⟩ => ⟨S640000x128, .f32⟩
  | .hbm, ⟨105, _⟩ => ⟨S640000x128, .f32⟩
  | .hbm, ⟨106, _⟩ => ⟨S_, .f32⟩
  | .hbm, ⟨107, _⟩ => ⟨S40000x128, .f32⟩
  | .hbm, ⟨108, _⟩ => ⟨S640000x1, .i32⟩
  | .hbm, ⟨109, _⟩ => ⟨S40000x128, .f32⟩
  | .hbm, ⟨110, _⟩ => ⟨S1x47, .f32⟩
  | .hbm, ⟨111, _⟩ => ⟨S40000x47, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .f32⟩
  | .local _ .vmem, ⟨21, _⟩ => ⟨S4000x128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | .local _ .vmem, ⟨26, _⟩ => ⟨S4000x1, .f32⟩
  | .local _ .vmem, ⟨27, _⟩ => ⟨S4000x1, .f32⟩
  | .local _ .vmem, ⟨28, _⟩ => ⟨S128x47, .f32⟩
  | .local _ .vmem, ⟨29, _⟩ => ⟨S128x47, .f32⟩
  | .local _ .vmem, ⟨30, _⟩ => ⟨S1x47, .f32⟩
  | .local _ .vmem, ⟨31, _⟩ => ⟨S4000x47, .f32⟩
  | .local _ .vmem, ⟨32, _⟩ => ⟨S4000x47, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v9 : Ref sig .tc := ⟨.hbm, 47, rfl⟩
abbrev main_cst_3 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v15 : Ref sig .tc := ⟨.hbm, 76, rfl⟩
abbrev main_cst_4 : Ref sig .tc := ⟨.hbm, 77, rfl⟩
abbrev main_v16 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_call2_c : Ref sig .tc := ⟨.hbm, 83, rfl⟩
abbrev main_call2_v0 : Ref sig .tc := ⟨.hbm, 84, rfl⟩
abbrev main_call2_v1 : Ref sig .tc := ⟨.hbm, 85, rfl⟩
abbrev main_call2_c_0 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_call2_v5 : Ref sig .tc := ⟨.hbm, 90, rfl⟩
abbrev main_call2_c_1 : Ref sig .tc := ⟨.hbm, 91, rfl⟩
abbrev main_call2_c_2 : Ref sig .tc := ⟨.hbm, 92, rfl⟩
abbrev main_call2_v6 : Ref sig .tc := ⟨.hbm, 93, rfl⟩
abbrev main_call2_v7 : Ref sig .tc := ⟨.hbm, 94, rfl⟩
abbrev main_call2_v8 : Ref sig .tc := ⟨.hbm, 95, rfl⟩
abbrev main_call2_v9 : Ref sig .tc := ⟨.hbm, 96, rfl⟩
abbrev main_call2_v10 : Ref sig .tc := ⟨.hbm, 97, rfl⟩
abbrev main_call2_v11 : Ref sig .tc := ⟨.hbm, 98, rfl⟩
abbrev main_call2_c_3 : Ref sig .tc := ⟨.hbm, 99, rfl⟩
abbrev main_call2_v12 : Ref sig .tc := ⟨.hbm, 100, rfl⟩
abbrev main_call2_v13 : Ref sig .tc := ⟨.hbm, 101, rfl⟩
abbrev main_call2_v14 : Ref sig .tc := ⟨.hbm, 102, rfl⟩
abbrev main_call2_cst : Ref sig .tc := ⟨.hbm, 103, rfl⟩
abbrev main_call2_v15 : Ref sig .tc := ⟨.hbm, 104, rfl⟩
abbrev main_v21 : Ref sig .tc := ⟨.hbm, 105, rfl⟩
abbrev main_cst_5 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_v26 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x47 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x47 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x47 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x47 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  bcast_S_S640000x1 : S_.BroadcastsInDim S640000x1 (![] : Fin 0 → Fin S640000x1.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  reducesTo_S640000x1_S640000_d1 : S640000x1.ReducesTo [1] S640000
  h_S_ : 0 < S_.numel
  bcast_S640000_S640000x128_0 : S640000.BroadcastsInDim S640000x128 (![0] : Fin 1 → Fin S640000x128.rank)
  bcast_S_S640000x128 : S_.BroadcastsInDim S640000x128 (![] : Fin 0 → Fin S640000x128.rank)
  bcast_S_S40000x128 : S_.BroadcastsInDim S40000x128 (![] : Fin 0 → Fin S40000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  shapeCasts_S47_S1x47 : S47.ShapeCasts S1x47
  inb_S128x47_S128x47_0_0 : ∀ a, (![0, 0] : Fin 2 → Nat) a + S128x47.size a ≤ S128x47.size a
  h_S128x47 : 0 < S128x47.numel
  inb_S1x47_S1x47_0_0 : ∀ a, (![0, 0] : Fin 2 → Nat) a + S1x47.size a ≤ S1x47.size a
  h_S1x47 : 0 < S1x47.numel
  shapeCasts_S1x47_S1x47 : S1x47.ShapeCasts S1x47
  broadcasts_S1x47_S4000x47 : S1x47.Broadcasts S4000x47
  inb_S4000x47_S4000x47_0_0 : ∀ a, (![0, 0] : Fin 2 → Nat) a + S4000x47.size a ≤ S4000x47.size a
  h_S4000x47 : 0 < S4000x47.numel
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S4000x128_S128x128_S4000x128_1_0_0_1_n_n_wf : DotDims.WF S4000x128 S128x128 S4000x128 [1] [0] [0] [1] [] []
  dot_S4000x128_S128x47_S4000x47_1_0_0_1_n_n_wf : DotDims.WF S4000x128 S128x47 S4000x47 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S40000x128.size a
  hwx0_0 : ∀ i : grid0.Coords, EltTy.bits .f32 = 32 ∨ (Rect.block (s := S40000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S40000x128.size a
  hwx0_1 : ∀ i : grid0.Coords, EltTy.bits .f32 = 32 ∨ (Rect.block (s := S40000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S40000x1.size a
  hwx0_2 : ∀ i : grid0.Coords, EltTy.bits .f32 = 32 ∨ (Rect.block (s := S40000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S40000x128.size a
  hwx0_6 : ∀ i : grid0.Coords, EltTy.bits .f32 = 32 ∨ (Rect.block (s := S40000x128) S4000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S40000x128.size a
  hwx1_0 : ∀ i : grid1.Coords, EltTy.bits .f32 = 32 ∨ (Rect.block (s := S40000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S40000x128.size a
  hwx1_1 : ∀ i : grid1.Coords, EltTy.bits .f32 = 32 ∨ (Rect.block (s := S40000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S40000x1.size a
  hwx1_2 : ∀ i : grid1.Coords, EltTy.bits .f32 = 32 ∨ (Rect.block (s := S40000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S40000x128.size a
  hwx1_6 : ∀ i : grid1.Coords, EltTy.bits .f32 = 32 ∨ (Rect.block (s := S40000x128) S4000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S40000x128.size a
  hwx2_0 : ∀ i : grid2.Coords, EltTy.bits .f32 = 32 ∨ (Rect.block (s := S40000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S40000x128.size a
  hwx2_1 : ∀ i : grid2.Coords, EltTy.bits .f32 = 32 ∨ (Rect.block (s := S40000x128) S4000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x1.size a ≤ S40000x1.size a
  hwx2_2 : ∀ i : grid2.Coords, EltTy.bits .f32 = 32 ∨ (Rect.block (s := S40000x1) S4000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x47.size a ≤ S128x47.size a
  hwx2_3 : ∀ i : grid2.Coords, EltTy.bits .f32 = 32 ∨ (Rect.block (s := S128x47) S128x47.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x47.size a ≤ S128x47.size a
  hwx2_4 : ∀ i : grid2.Coords, EltTy.bits .f32 = 32 ∨ (Rect.block (s := S128x47) S128x47.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x47.size a ≤ S1x47.size a
  hwx2_5 : ∀ i : grid2.Coords, EltTy.bits .f32 = 32 ∨ (Rect.block (s := S1x47) S1x47.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x47.size a ≤ S40000x47.size a
  hwx2_6 : ∀ i : grid2.Coords, EltTy.bits .f32 = 32 ∨ (Rect.block (s := S40000x47) S4000x47.size (cc2_transform_6 i) (hinb2_6 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x47_S4000x47_1_0_0_1_n_n : DotDims S4000x128 S128x47 S4000x47 where
  lhsContracting := [1]
  rhsContracting := [0]
  lhsNonContracting := [0]
  rhsNonContracting := [1]
  lhsBatch := []
  rhsBatch := []
  wf := dot_S4000x128_S128x47_S4000x47_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v20) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v20) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S4000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S128x47.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x47.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S1x47.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S4000x47.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S40000x128 : Shape := ⟨2, ![40000, 128]⟩
abbrev S640000 : Shape := ⟨1, ![640000]⟩
abbrev S128x128 : Shape := ⟨2, ![128, 128]⟩
abbrev S128 : Shape := ⟨1, ![128]⟩
abbrev S128x47 : Shape := ⟨2, ![128, 47]⟩
abbrev S47 : Shape := ⟨1, ![47]⟩
abbrev S_ : Shape := ⟨0, ![]⟩
abbrev S40000 : Shape := ⟨1, ![40000]⟩
abbrev S640000x1 : Shape := ⟨2, ![640000, 1]⟩
abbrev S640000x128 : Shape := ⟨2, ![640000, 128]⟩
abbrev S40000x1 : Shape := ⟨2, ![40000, 1]⟩
abbrev S1x128 : Shape := ⟨2, ![1, 128]⟩
abbrev S40000x47 : Shape := ⟨2, ![40000, 47]⟩
abbrev S1x47 : Shape := ⟨2, ![1, 47]⟩

abbrev nBuf : Space → Nat
  | .hbm => 111
  | .vmem => 0
  | .smem => 0
  | _ => 0

abbrev bufTy : (tb : Table) → Fin (tcTables nBuf tb) → BufTy
  | .hbm, ⟨0, _⟩ => ⟨S40000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128, .f32⟩
  | .hbm, ⟨9, _⟩ => ⟨S128x47, .f32⟩
  | .hbm, ⟨10, _⟩ => ⟨S128x47, .f32⟩
  | .hbm, ⟨11, _⟩ => ⟨S47, .f32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S40000, .f32⟩
  | .hbm, ⟨16, _⟩ => ⟨S640000x1, .i32⟩
  | .hbm, ⟨17, _⟩ => ⟨S40000, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S_, .f32⟩
  | .hbm, ⟨28, _⟩ => ⟨S40000x128, .f32⟩
  | .hbm, ⟨29, _⟩ => ⟨S640000x1, .i32⟩
  | .hbm, ⟨30, _⟩ => ⟨S40000x128, .f32⟩
  | .hbm, ⟨31, _⟩ => ⟨S_, .f32⟩
  | .hbm, ⟨32, _⟩ => ⟨S40000, .f32⟩
  | .hbm, ⟨33, _⟩ => ⟨S40000, .f32⟩
  | .hbm, ⟨34, _⟩ => ⟨S40000x1, .f32⟩
  | .hbm, ⟨35, _⟩ => ⟨S40000x128, .f32⟩
  | .hbm, ⟨36, _⟩ => ⟨S40000x128, .f32⟩
  | .hbm, ⟨37, _⟩ => ⟨S40000x128, .f32⟩
  | .hbm, ⟨38, _⟩ => ⟨S40000x128, .f32⟩
  | .hbm, ⟨39, _⟩ => ⟨S40000x128, .f32⟩
  | .hbm, ⟨40, _⟩ => ⟨S1x128, .f32⟩
  | .hbm, ⟨41, _⟩ => ⟨S40000x128, .f32⟩
  | .hbm, ⟨42, _⟩ => ⟨S40000x128, .f32⟩
  | .hbm, ⟨43, _⟩ => ⟨S_, .f32⟩
  | .hbm, ⟨44, _⟩ => ⟨S40000x128, .f32⟩
  | .hbm, ⟨45, _⟩ => ⟨S40000x128, .f32⟩
  | .hbm, ⟨46, _⟩ => ⟨S_, .f32⟩
  | .hbm, ⟨47, _⟩ => ⟨S640000, .f32⟩
  | .hbm, ⟨48, _⟩ => ⟨S_, .f32⟩
  | .hbm, ⟨49, _⟩ => ⟨S40000, .f32⟩
  | .hbm, ⟨50, _⟩ => ⟨S640000x1, .i32⟩
  | .hbm, ⟨51, _⟩ => ⟨S40000, .f32⟩
  | .hbm, ⟨52, _⟩ => ⟨S_, .i32⟩
  | .hbm, ⟨53, _⟩ => ⟨S640000, .i32⟩
  | .hbm, ⟨54, _⟩ => ⟨S640000, .i1⟩
  | .hbm, ⟨55, _⟩ => ⟨S_, .i32⟩
  | .hbm, ⟨56, _⟩ => ⟨S640000, .i32⟩
  | .hbm, ⟨57, _⟩ => ⟨S640000, .i32⟩
  | .hbm, ⟨58, _⟩ => ⟨S640000, .i32⟩
  | .hbm, ⟨59, _⟩ => ⟨S640000x1, .i32⟩
  | .hbm, ⟨60, _⟩ => ⟨S640000x128, .f32⟩
  | .hbm, ⟨61, _⟩ => ⟨S_, .f32⟩
  | .hbm, ⟨62, _⟩ => ⟨S40000x128, .f32⟩
  | .hbm, ⟨63, _⟩ => ⟨S640000x1, .i32⟩
  | .hbm, ⟨64, _⟩ => ⟨S40000x128, .f32⟩
  | .hbm, ⟨65, _⟩ => ⟨S_, .f32⟩
  | .hbm, ⟨66, _⟩ => ⟨S40000, .f32⟩
  | .hbm, ⟨67, _⟩ => ⟨S40000, .f32⟩
  | .hbm, ⟨68, _⟩ => ⟨S40000x1, .f32⟩
  | .hbm, ⟨69, _⟩ => ⟨S40000x128, .f32⟩
  | .hbm, ⟨70, _⟩ => ⟨S40000x128, .f32⟩
  | .hbm, ⟨71, _⟩ => ⟨S40000x128, .f32⟩
  | .hbm, ⟨72, _⟩ => ⟨S40000x128, .f32⟩
  | .hbm, ⟨73, _⟩ => ⟨S40000x128, .f32⟩
  | .hbm, ⟨74, _⟩ => ⟨S1x128, .f32⟩
  | .hbm, ⟨75, _⟩ => ⟨S40000x128, .f32⟩
  | .hbm, ⟨76, _⟩ => ⟨S40000x128, .f32⟩
  | .hbm, ⟨77, _⟩ => ⟨S_, .f32⟩
  | .hbm, ⟨78, _⟩ => ⟨S40000x128, .f32⟩
  | .hbm, ⟨79, _⟩ => ⟨S40000x128, .f32⟩
  | .hbm, ⟨80, _⟩ => ⟨S_, .f32⟩
  | .hbm, ⟨81, _⟩ => ⟨S640000, .f32⟩
  | .hbm, ⟨82, _⟩ => ⟨S_, .f32⟩
  | .hbm, ⟨83, _⟩ => ⟨S40000, .f32⟩
  | .hbm, ⟨84, _⟩ => ⟨S640000x1, .i32⟩
  | .hbm, ⟨85, _⟩ => ⟨S40000, .f32⟩
  | .hbm, ⟨86, _⟩ => ⟨S_, .i32⟩
  | .hbm, ⟨87, _⟩ => ⟨S640000, .i32⟩
  | .hbm, ⟨88, _⟩ => ⟨S640000, .i1⟩
  | .hbm, ⟨89, _⟩ => ⟨S_, .i32⟩
  | .hbm, ⟨90, _⟩ => ⟨S640000, .i32⟩
  | .hbm, ⟨91, _⟩ => ⟨S640000, .i32⟩
  | .hbm, ⟨92, _⟩ => ⟨S640000, .i32⟩
  | .hbm, ⟨93, _⟩ => ⟨S640000x1, .i32⟩
  | .hbm, ⟨94, _⟩ => ⟨S640000x128, .f32⟩
  | .hbm, ⟨95, _⟩ => ⟨S_, .f32⟩
  | .hbm, ⟨96, _⟩ => ⟨S40000x128, .f32⟩
  | .hbm, ⟨97, _⟩ => ⟨S640000x1, .i32⟩
  | .hbm, ⟨98, _⟩ => ⟨S40000x128, .f32⟩
  | .hbm, ⟨99, _⟩ => ⟨S_, .f32⟩
  | .hbm, ⟨100, _⟩ => ⟨S40000, .f32⟩
  | .hbm, ⟨101, _⟩ => ⟨S40000, .f32⟩
  | .hbm, ⟨102, _⟩ => ⟨S40000x1, .f32⟩
  | .hbm, ⟨103, _⟩ => ⟨S40000x128, .f32⟩
  | .hbm, ⟨104, _⟩ => ⟨S40000x128, .f32⟩
  | .hbm, ⟨105, _⟩ => ⟨S40000x47, .f32⟩
  | .hbm, ⟨106, _⟩ => ⟨S40000x47, .f32⟩
  | .hbm, ⟨107, _⟩ => ⟨S40000x47, .f32⟩
  | .hbm, ⟨108, _⟩ => ⟨S1x47, .f32⟩
  | .hbm, ⟨109, _⟩ => ⟨S40000x47, .f32⟩
  | .hbm, ⟨110, _⟩ => ⟨S40000x47, .f32⟩
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call0_cst : Ref sig .tc := ⟨.hbm, 43, rfl⟩
abbrev main_call0_v0 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_cst_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_c_7 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_8 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_call1_cst : Ref sig .tc := ⟨.hbm, 77, rfl⟩
abbrev main_call1_v0 : Ref sig .tc := ⟨.hbm, 78, rfl⟩
abbrev main_v51 : Ref sig .tc := ⟨.hbm, 79, rfl⟩
abbrev main_cst_10 : Ref sig .tc := ⟨.hbm, 80, rfl⟩
abbrev main_v52 : Ref sig .tc := ⟨.hbm, 81, rfl⟩
abbrev main_cst_11 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_c_12 : Ref sig .tc := ⟨.hbm, 86, rfl⟩
abbrev main_v56 : Ref sig .tc := ⟨.hbm, 87, rfl⟩
abbrev main_v57 : Ref sig .tc := ⟨.hbm, 88, rfl⟩
abbrev main_c_13 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_14 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_cst_15 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S_S40000 : S_.BroadcastsInDim S40000 (![] : Fin 0 → Fin S40000.rank)
  bcast_S640000_S640000x1_0 : S640000.BroadcastsInDim S640000x1 (![0] : Fin 1 → Fin S640000x1.rank)
  bcast_S_S40000x128 : S_.BroadcastsInDim S40000x128 (![] : Fin 0 → Fin S40000x128.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S47_S1x47_1 : S47.BroadcastsInDim S1x47 (![1] : Fin 1 → Fin S1x47.rank)
  bcast_S1x47_S40000x47_0_1 : S1x47.BroadcastsInDim S40000x47 (![0, 1] : Fin 2 → Fin S40000x47.rank)
  scatter_S40000_S640000x1_S640000_n_0_0_1_wf : ScatterDims.WF S40000 S640000x1 S640000 [] [0] [0] 1
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x47_S40000x47_1_0_0_1_n_n_wf : DotDims.WF S40000x128 S128x47 S40000x47 [1] [0] [0] [1] [] []

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x47_S40000x47_1_0_0_1_n_n : DotDims S40000x128 S128x47 S40000x47 where
  lhsContracting := [1]
  rhsContracting := [0]
  lhsNonContracting := [0]
  rhsNonContracting := [1]
  lhsBatch := []
  rhsBatch := []
  wf := dot_S40000x128_S128x47_S40000x47_1_0_0_1_n_n_wf

class Facts : Prop extends Facts₀ where

variable [Facts]
-- ==== Proof.Spec.lean ====
/-
  One mean-aggregation graph layer, as a function of whole arrays, index by index over the extended reals.

  For node `r` and output column `j` the layer's pre-activation is
      (∑ₖ h[r,k] · W_self[k,j]) + (∑ₖ (agg[r,k] · s[r]) · W_neigh[k,j]) + b[j],
  where `agg[r,·]` is the sum of the source rows over the edges that end at `r` and `s[r]` is the reciprocal
  of that node's clipped in-degree. Both programs compute exactly this; they differ only in how `s` meets
  `agg` (a product with a reciprocal on one side, a quotient on the other), and that is one law of the
  extended reals (`div_eq_mul_one_div` below), which needs the divisor to be nonzero and nothing finite.
-/
import Idealize.ShloMosaic.PureOps.Ideal
import Idealize.ShloMosaic.Lib.ValueIdx

noncomputable section

namespace Cert.Sage

open Idealize.ShloMosaic Idealize.ShloMosaic.ValueIdx
open scoped BigOperators

/-- The pre-activation at node `r`, column `j`: self term, neighbour term (aggregate times the per-node
    scale, then the neighbour weights), bias. `d` is the layer's output width. -/
def comb {d : Nat} (h agg : FVec Ideal ⟨2, ![40000, 128]⟩ .f32) (s : FVec Ideal ⟨2, ![40000, 1]⟩ .f32)
    (Ws Wn : FVec Ideal ⟨2, ![128, d]⟩ .f32) (b : FVec Ideal ⟨2, ![1, d]⟩ .f32) (r : Fin 40000) (j : Fin d) : EReal :=
  (∑ k : Fin 128, h (ix2 r k) * Ws (ix2 k j)) + (∑ k : Fin 128, (agg (ix2 r k) * s (ix2 r 0)) * Wn (ix2 k j))
    + b (ix2 0 j)

/-- A layer without activation: the array of pre-activations. -/
def layer {d : Nat} (h agg : FVec Ideal ⟨2, ![40000, 128]⟩ .f32) (s : FVec Ideal ⟨2, ![40000, 1]⟩ .f32)
    (Ws Wn : FVec Ideal ⟨2, ![128, d]⟩ .f32) (b : FVec Ideal ⟨2, ![1, d]⟩ .f32) : FVec Ideal ⟨2, ![40000, d]⟩ .f32 :=
  fun i => comb h agg s Ws Wn b (i 0) (i 1)

/-- A layer followed by the rectifier `max(·, 0)`. -/
def layerRelu {d : Nat} (h agg : FVec Ideal ⟨2, ![40000, 128]⟩ .f32) (s : FVec Ideal ⟨2, ![40000, 1]⟩ .f32)
    (Ws Wn : FVec Ideal ⟨2, ![128, d]⟩ .f32) (b : FVec Ideal ⟨2, ![1, d]⟩ .f32) : FVec Ideal ⟨2, ![40000, d]⟩ .f32 :=
  fun i => max (comb h agg s Ws Wn b (i 0) (i 1)) 0

/-- A quotient by a nonzero extended real is the product with the reciprocal `1 / y`, at the infinities too:
    off zero `Ideal.div x y` is `x · y⁻¹` and `Ideal.div 1 y` is `1 · y⁻¹`. -/
theorem div_eq_mul_one_div (x y : EReal) (hy : y ≠ 0) : Ideal.div x y = x * Ideal.div 1 y := by
  unfold Ideal.div
  rw [if_neg hy, if_neg hy, one_mul]

/-- The clipped degree `max(deg, 1)` is never zero. -/
theorem max_one_ne_zero (x : EReal) : max x 1 ≠ 0 :=
  ne_of_gt (lt_of_lt_of_le zero_lt_one (le_max_right x 1))

end Cert.Sage

end
-- ==== Proof.KernelHost.lean ====
/-
  The host operations of the kernel's program between its three launches, each stretch named as ONE pure
  function of the arrays it reads. Per layer: the source index as a column (a negative entry counted from the
  end), the test that this column lies in [0, 39999], the row gather with out-of-range rows filled by the
  fill pattern, the accumulating scatter of the gathered rows into the rows named by the destination index
  (the aggregate), and, once for all layers, the reciprocal of the clipped in-degree as a column.
-/
import proofs.«424202_j8555574854331_2_alg».proof.Proof.Gen.KernelIdeal

noncomputable section

namespace Cert.KernelIdeal.Glue

open Cert.KernelIdeal Cert.KernelIdeal.Gen Idealize.ShloMosaic

variable {F : FTy → Type} [FloatOps F]

/-- The source index as a column of start indices: an entry below zero has the node count added. -/
def wrapIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 40000#32))) src)

/-- Per edge: does its start index lie in [0, 39999]? (The conjunction over the column's one entry.) -/
def inRange (w : IVec S640000x1 32) : IVec S640000 1 :=
  Host.reduce IntOp.andi
    (andi (cmpi .sge w (broadcastInDim S640000x1 ![] bcast_S_S640000x1 (constantI S_ 32 0#32)))
      (cmpi .sle w (broadcastInDim S640000x1 ![0, 1] bcast_S1x1_S640000x1_0_1
        (broadcastInDim S1x1 ![1] bcast_S1_S1x1_1 (constantI S1 32 39999#32)))))
    (constantI S_ 1 1#1) reducesTo_S640000x1_S640000_d1 h_S_

/-- The rows of `h` named by a column of start indices. -/
def rowsOf (h : FVec F S40000x128 .f32) (w : IVec S640000x1 32) : FVec F S640000x128 .f32 :=
  Host.gather gather_S40000x128_S640000x1_S640000x128_1_0_n_n_0_1_1128 h w

/-- The gathered rows, a row whose start index is out of range replaced by the fill pattern. -/
def takeFill (h : FVec F S40000x128 .f32) (src : IVec S640000 32) : FVec F S640000x128 .f32 :=
  select (broadcastInDim S640000x128 ![0] bcast_S640000_S640000x128_0 (inRange (wrapIdx src)))
    (rowsOf h (wrapIdx src))
    (broadcastInDim S640000x128 ![] bcast_S_S640000x128 (constant S_ .f32 0x7FC00000#32))

/-- Edge rows summed into the node rows the destination index names, from zero. -/
def sumInto (dst : IVec S640000 32) (u : FVec F S640000x128 .f32) : FVec F S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst) u

/-- The neighbour aggregate of a layer's input. -/
def aggOf (h : FVec F S40000x128 .f32) (src dst : IVec S640000 32) : FVec F S40000x128 .f32 :=
  sumInto dst (takeFill h src)

/-- The in-degree (a one summed per edge into its destination), clipped below at one. -/
def degClip (dst : IVec S640000 32) : FVec F S40000 .f32 :=
  maximumf
    (Host.scatterAdd scatter_S40000_S640000x1_S640000_n_0_0_1
      (broadcastInDim S40000 ![] bcast_S_S40000 (constant S_ .f32 0x00000000#32))
      (broadcastInDim S640000x1 ![0] bcast_S640000_S640000x1_0 dst)
      (broadcastInDim S640000 ![] bcast_S_S640000 (constant S_ .f32 0x3F800000#32)))
    (broadcastInDim S40000 ![] bcast_S_S40000 (constant S_ .f32 0x3F800000#32))

/-- The reciprocal of the clipped in-degree, as a column. -/
def scaleCol (dst : IVec S640000 32) : FVec F S40000x1 .f32 :=
  shapeCast S40000x1
    (Host.divf (broadcastInDim S40000 ![] bcast_S_S40000 (constant S_ .f32 0x3F800000#32)) (degClip dst))
    shapeCasts_S40000_S40000x1

/-- A bias vector as a one-row matrix (width 128). -/
def biasRow (b : FVec F S128 .f32) : FVec F S1x128 .f32 := shapeCast S1x128 b shapeCasts_S128_S1x128

/-- A bias vector as a one-row matrix (width 47). -/
def biasRow47 (b : FVec F S47 .f32) : FVec F S1x47 .f32 := shapeCast S1x47 b shapeCasts_S47_S1x47

end Cert.KernelIdeal.Glue

end
-- ==== Proof.WalkA.lean ====
/-
  The buffers the FIRST launch reads, as pure functions of the arguments. The host operations before it compute the
  in-degree and its clipped reciprocal as a column, the fill-mode row take of the input at the source index, the
  accumulating scatter of those rows into the destination rows (the first aggregate), and the first bias as a row.
  Every other buffer read from here on is an argument array, which no host operation writes.
-/
import proofs.«424202_j8555574854331_2_alg».proof.Proof.Gen.KernelIdeal.Frame
import proofs.«424202_j8555574854331_2_alg».proof.Proof.KernelHost

set_option maxRecDepth 16384
-- one declaration at a time: each walk through a host stretch holds its whole term while it runs
set_option Elab.async false

noncomputable section

namespace Cert.KernelIdeal.WalkA

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- No host operation before the first launch writes an argument array. (Argument 5, the first bias, is only read
    here, into its row form, and nothing later reads it.) -/
theorem W3_kept (c : Dev nD) (b : Ref sig .tc)
    (hb : b ∈ [main_arg0, main_arg1, main_arg2, main_arg3, main_arg4, main_arg6, main_arg7, main_arg8, main_arg9,
      main_arg10, main_arg11]) :
    W3 m ρ c (Proc.devRef .tc b) = m ((c : Thread nD τ).loc b) := by
  simp only [List.mem_cons, List.not_mem_nil, or_false] at hb
  rcases hb with rfl | rfl | rfl | rfl | rfl | rfl | rfl | rfl | rfl | rfl | rfl <;>
    (dsimp only [W3, W2, W1, hostOps0, hostOps0_1, hostOps0_2]; after_results_simp <;> rfl)

set_option maxHeartbeats 2000000 in
/-- The first aggregate: the input's rows at the source index, summed into the destination rows. -/
theorem W3_v12 (c : Dev nD) : W3 m ρ c (Proc.devRef .tc main_v12)
    = Glue.aggOf (m ((c : Thread nD τ).loc main_arg0)) (m ((c : Thread nD τ).loc main_arg1))
        (m ((c : Thread nD τ).loc main_arg2)) := by
  dsimp only [W3, W2, W1, hostOps0, hostOps0_1, hostOps0_2]
  after_results_simp
  simp only [cast_eq]
  rfl

set_option maxHeartbeats 2000000 in
/-- The reciprocal of the clipped in-degree, as a column. -/
theorem W3_v8 (c : Dev nD) : W3 m ρ c (Proc.devRef .tc main_v8) = Glue.scaleCol (m ((c : Thread nD τ).loc main_arg2)) := by
  dsimp only [W3, W2, W1, hostOps0, hostOps0_1, hostOps0_2]
  after_results_simp <;> rfl

set_option maxHeartbeats 2000000 in
/-- The first bias, as a row. -/
theorem W3_v13 (c : Dev nD) : W3 m ρ c (Proc.devRef .tc main_v13) = Glue.biasRow (m ((c : Thread nD τ).loc main_arg5)) := by
  dsimp only [W3, W2, W1, hostOps0, hostOps0_1, hostOps0_2]
  after_results_simp <;> rfl

end Cert.KernelIdeal.WalkA

end
-- ==== Proof.WalkB.lean ====
/-
  The buffers the SECOND launch reads, over the contents the first launch leaves. The host operations between the
  two launches compute the second aggregate — the fill-mode row take of the first layer's output at the source
  index, scattered into the destination rows — and the second bias as a row; everything else is kept.
-/
import proofs.«424202_j8555574854331_2_alg».proof.Proof.Gen.KernelIdeal.Frame
import proofs.«424202_j8555574854331_2_alg».proof.Proof.KernelHost
import proofs.«424202_j8555574854331_2_alg».proof.Proof.WalkA

set_option maxRecDepth 16384
-- one declaration at a time: each walk through a host stretch holds its whole term while it runs
set_option Elab.async false

noncomputable section

namespace Cert.KernelIdeal.WalkB

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- The host operations between the first and second launches write none of these: the first layer's output, the
    scale column, and the argument arrays still to be read. -/
theorem W6_kept (c : Dev nD) (b : Ref sig .tc)
    (hb : b ∈ [main_v14, main_v8, main_arg1, main_arg2, main_arg6, main_arg7, main_arg9, main_arg10, main_arg11]) :
    W6 m ρ c (Proc.devRef .tc b) = W4 m ρ c (Proc.devRef .tc b) := by
  simp only [List.mem_cons, List.not_mem_nil, or_false] at hb
  rcases hb with rfl | rfl | rfl | rfl | rfl | rfl | rfl | rfl | rfl <;>
    (dsimp only [W6, W5, hostOps1, hostOps1_1]; after_results_simp <;> rfl)

set_option maxHeartbeats 2000000 in
/-- The second aggregate, of the first layer's output. -/
theorem W6_v18 (c : Dev nD) : W6 m ρ c (Proc.devRef .tc main_v18)
    = Glue.aggOf (W4 m ρ c (Proc.devRef .tc main_v14)) (W4 m ρ c (Proc.devRef .tc main_arg1))
        (W4 m ρ c (Proc.devRef .tc main_arg2)) := by
  dsimp only [W6, W5, hostOps1, hostOps1_1]
  after_results_simp
  simp only [cast_eq]
  rfl

set_option maxHeartbeats 2000000 in
/-- The second bias, as a row. -/
theorem W6_v19 (c : Dev nD) : W6 m ρ c (Proc.devRef .tc main_v19) = Glue.biasRow (W4 m ρ c (Proc.devRef .tc main_arg8)) := by
  dsimp only [W6, W5, hostOps1, hostOps1_1]
  after_results_simp <;> rfl

end Cert.KernelIdeal.WalkB

end
-- ==== Proof.WalkC.lean ====
/-
  The buffers the THIRD launch reads, over the contents the second launch leaves. The host operations between the
  two launches compute the third aggregate — the fill-mode row take of the second layer's output at the source
  index, scattered into the destination rows — and the third bias as a row; everything else is kept.
-/
import proofs.«424202_j8555574854331_2_alg».proof.Proof.Gen.KernelIdeal.Frame
import proofs.«424202_j8555574854331_2_alg».proof.Proof.KernelHost
import proofs.«424202_j8555574854331_2_alg».proof.Proof.WalkB

set_option maxRecDepth 16384
-- one declaration at a time: each walk through a host stretch holds its whole term while it runs
set_option Elab.async false

noncomputable section

namespace Cert.KernelIdeal.WalkC

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

set_option maxHeartbeats 4000000 in
/-- The host operations between the second and third launches write none of these: the second layer's output, the
    scale column, and the last layer's two weight matrices. -/
theorem W9_kept (c : Dev nD) (b : Ref sig .tc) (hb : b ∈ [main_v20, main_v8, main_arg9, main_arg10]) :
    W9 m ρ c (Proc.devRef .tc b) = W7 m ρ c (Proc.devRef .tc b) := by
  simp only [List.mem_cons, List.not_mem_nil, or_false] at hb
  rcases hb with rfl | rfl | rfl | rfl <;>
    (dsimp only [W9, W8, hostOps2, hostOps2_1]; after_results_simp <;> rfl)

set_option maxHeartbeats 2000000 in
/-- The third aggregate, of the second layer's output. -/
theorem W9_v24 (c : Dev nD) : W9 m ρ c (Proc.devRef .tc main_v24)
    = Glue.aggOf (W7 m ρ c (Proc.devRef .tc main_v20)) (W7 m ρ c (Proc.devRef .tc main_arg1))
        (W7 m ρ c (Proc.devRef .tc main_arg2)) := by
  dsimp only [W9, W8, hostOps2, hostOps2_1]
  after_results_simp
  simp only [cast_eq]
  rfl

set_option maxHeartbeats 2000000 in
/-- The third bias, as a row. -/
theorem W9_v25 (c : Dev nD) : W9 m ρ c (Proc.devRef .tc main_v25) = Glue.biasRow47 (W7 m ρ c (Proc.devRef .tc main_arg11)) := by
  dsimp only [W9, W8, hostOps2, hostOps2_1]
  after_results_simp <;> rfl

end Cert.KernelIdeal.WalkC

end
-- ==== Proof.Region0.lean ====
/-
  The first launch of the kernel's program: its output array, as the generated frame names it after the launch, is the
  rectified graph layer of the arrays the launch finds at entry.

  The body's arithmetic at one entry of a block (two matrix products accumulated from zero, the second of the
  aggregate rows scaled by their node's factor; their sum; the bias; the maximum with zero) is the layer's formula
  with the block's own rows in place of the array's. Each loaded block is the array's rows `4000·t …` at grid
  point `t` (the weights and the bias are whole), the written block sits at the same rows, and the ten blocks tile
  the output. The statements about the matrix product and the two broadcasts are shared by the later launches.
-/
import proofs.«424202_j8555574854331_2_alg».proof.Proof.Gen.KernelIdeal.Frame
import proofs.«424202_j8555574854331_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Region

open Cert.KernelIdeal Cert.KernelIdeal.Gen Idealize.ShloMosaic Idealize.ShloMosaic.ValueIdx
open scoped BigOperators
open Idealize.ShloMosaic.TcCoe

/-! ## The matrix product of a row block with a weight matrix, entry by entry -/

/-- The left operand's index at output entry `i` and contraction index `q`: the output's row on axis 0. -/
theorem lhsIdx_row (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
/-- … and the contraction index on axis 1. -/
theorem lhsIdx_col (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
/-- The right operand's index: the contraction index on axis 0, -/
theorem rhsIdx_row (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
/-- … and the output's column on axis 1. -/
theorem rhsIdx_col (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A block of 4000 rows times a 128×128 matrix, accumulated from zero: entry (p, q) is the sum over the 128
    inner indices `k` of `l[p,k] · r[k,q]`. -/
theorem matmul_entry {φ₁ φ₂ : FTy} (l : FVec Ideal S4000x128 φ₁) (r : FVec Ideal S128x128 φ₂) (p : Fin 4000) (q : Fin 128) :
    matmul dot_S4000x128_S128x128_S4000x128_1_0_0_1_n_n none l r (constant S4000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p q) ((ValueIdx.contrEquiv1 dot_S4000x128_S128x128_S4000x128_1_0_0_1_n_n 128 rfl rfl).symm k) = ix2 p k := funext fun a => Fin.ext (by
    match a with
    | ⟨0, _⟩ => exact lhsIdx_row _ _
    | ⟨1, _⟩ => exact (lhsIdx_col _ _).trans hk)
  have er : dot_S4000x128_S128x128_S4000x128_1_0_0_1_n_n.rhsIdx (ix2 p q) ((ValueIdx.contrEquiv1 dot_S4000x128_S128x128_S4000x128_1_0_0_1_n_n 128 rfl rfl).symm k) = ix2 k q := funext fun a => Fin.ext (by
    match a with
    | ⟨0, _⟩ => exact (rhsIdx_row _ _).trans hk
    | ⟨1, _⟩ => exact rhsIdx_col _ _)
  rw [el, er]

/-! ## The layout operations of the body, entry by entry -/

/-- The scale column spread over the 128 columns: entry (p, k) is the column's entry in row p. -/
theorem spread_col (x : FVec Ideal S4000x1 .f32) (p : Fin 4000) (k : Fin 128) :
    broadcastTo S4000x128 x broadcasts_S4000x1_S4000x128 (ix2 p k) = x (ix2 p 0) :=
  broadcastTo_apply x broadcasts_S4000x1_S4000x128 (ix2 p k) (ix2 p 0) (fun a => match a with
    | ⟨0, _⟩ => by show p.val = if (4000 : Nat) = 1 then 0 else p.val; rw [if_neg (by decide)]
    | ⟨1, _⟩ => by show 0 = if (1 : Nat) = 1 then 0 else k.val; rw [if_pos rfl])

/-- The bias row spread over the 4000 rows: entry (p, q) is the row's entry in column q. -/
theorem spread_row (x : FVec Ideal S1x128 .f32) (p : Fin 4000) (q : Fin 128) :
    broadcastTo S4000x128 x broadcasts_S1x128_S4000x128 (ix2 p q) = x (ix2 0 q) :=
  broadcastTo_apply x broadcasts_S1x128_S4000x128 (ix2 p q) (ix2 0 q) (fun a => match a with
    | ⟨0, _⟩ => by show 0 = if (1 : Nat) = 1 then 0 else p.val; rw [if_pos rfl]
    | ⟨1, _⟩ => by show q.val = if (128 : Nat) = 1 then 0 else q.val; rw [if_neg (by decide)])

/-! ## The body's arithmetic at an entry of the block -/

/-- Entry (p, q) of what the body stores: the self term, the neighbour term (aggregate times the row's scale, then
    the neighbour weights), the bias, and the rectifier. Rounding to the narrower format is the identity on the
    extended reals, and the shape casts are between equal shapes. -/
theorem pay0_entry (x0 x1 : Vec Ideal S4000x128 .f32) (x2 : Vec Ideal S4000x1 .f32) (x3 x4 : Vec Ideal S128x128 .f32)
    (x5 : Vec Ideal S1x128 .f32) (p : Fin 4000) (q : Fin 128) :
    k0_pay1 x0 x1 x2 x3 x4 x5 (ix2 p q)
      = max ((∑ k : Fin 128, x0 (ix2 p k) * x3 (ix2 k q))
          + (∑ k : Fin 128, (x1 (ix2 p k) * x2 (ix2 p 0)) * x4 (ix2 k q)) + x5 (ix2 0 q)) 0 := by
  unfold k0_pay1
  simp only [shapeCast_self]
  rw [maximumf_apply, addf_apply, addf_apply, matmul_entry, matmul_entry, spread_row, broadcast_apply]
  simp only [truncf_apply, mulf_apply, spread_col]
  show max _ (Ideal.ofBits .f32 0x00000000#32) = _
  rw [Ideal.ofBits_zero_f32]

/-! ## Where each window's block sits in its array -/

theorem offsets_zero : (![0, 0] : Fin 2 → Nat) = fun _ => 0 := funext fun a => by fin_cases a <;> rfl

/-- The block indices at grid point `t`: the three row-blocked inputs and the output are at block row `t`, the two
    weight matrices and the bias row are whole (block (0, 0)). Decided over the ten points. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `p` of the layer input's block at point `t` is row `4000·t + p` of the array. -/
theorem input_block0 (p : Fin 4000) (k : Fin 128) (r : Fin 40000) (hr : r.val = t.val * 4000 + p.val) :
    (iblk0 V c 0 t : Vec Ideal S4000x128 .f32) (ix2 p k) = (V c main_arg0 : S40000x128.Idx → EReal) (ix2 r k) := by
  obtain ⟨e0, e1, -⟩ := block_index0 t
  show V c main_arg0 (((cfg0.win 0).blk t).view.emb (ix2 p k)) = V c main_arg0 (ix2 r k)
  refine congrArg _ (funext fun a => Fin.ext ?_)
  match a with
  | ⟨0, _⟩ => show win0_0.index t (0 : Fin 2) * 4000 + 1 * p.val = r.val; omega
  | ⟨1, _⟩ => show win0_0.index t (1 : Fin 2) * 128 + 1 * k.val = k.val; omega

/-- Row `p` of the aggregate's block at point `t` is row `4000·t + p` of the array. -/
theorem aggregate_block0 (p : Fin 4000) (k : Fin 128) (r : Fin 40000) (hr : r.val = t.val * 4000 + p.val) :
    (iblk0 V c 1 t : Vec Ideal S4000x128 .f32) (ix2 p k) = (V c main_v12 : S40000x128.Idx → EReal) (ix2 r k) := by
  obtain ⟨-, -, e0, e1, -⟩ := block_index0 t
  show V c main_v12 (((cfg0.win 1).blk t).view.emb (ix2 p k)) = V c main_v12 (ix2 r k)
  refine congrArg _ (funext fun a => Fin.ext ?_)
  match a with
  | ⟨0, _⟩ => show win0_1.index t (0 : Fin 2) * 4000 + 1 * p.val = r.val; omega
  | ⟨1, _⟩ => show win0_1.index t (1 : Fin 2) * 128 + 1 * k.val = k.val; omega

/-- Row `p` of the scale column's block at point `t` is row `4000·t + p` of the column. -/
theorem scale_block0 (p : Fin 4000) (r : Fin 40000) (hr : r.val = t.val * 4000 + p.val) :
    (iblk0 V c 2 t : Vec Ideal S4000x1 .f32) (ix2 p 0) = (V c main_v8 : S40000x1.Idx → EReal) (ix2 r 0) := by
  obtain ⟨-, -, -, -, e0, e1, -⟩ := block_index0 t
  show V c main_v8 (((cfg0.win 2).blk t).view.emb (ix2 p 0)) = V c main_v8 (ix2 r 0)
  refine congrArg _ (funext fun a => Fin.ext ?_)
  match a with
  | ⟨0, _⟩ => show win0_2.index t (0 : Fin 2) * 4000 + 1 * p.val = r.val; omega
  | ⟨1, _⟩ => show win0_2.index t (1 : Fin 2) * 1 + 1 * 0 = 0; omega

/-- The self weights' one block is the whole matrix. -/
theorem self_weights_block0 : (iblk0 V c 3 t : Vec Ideal S128x128 .f32) = (V c main_arg3 : S128x128.Idx → EReal) := by
  obtain ⟨-, -, -, -, -, -, e0, e1, -⟩ := block_index0 t
  funext x
  show V c main_arg3 (((cfg0.win 3).blk t).view.emb x) = V c main_arg3 x
  refine congrArg _ (funext fun a => Fin.ext ?_)
  match a with
  | ⟨0, _⟩ => show win0_3.index t (0 : Fin 2) * 128 + 1 * (x 0).val = (x 0).val; omega
  | ⟨1, _⟩ => show win0_3.index t (1 : Fin 2) * 128 + 1 * (x 1).val = (x 1).val; omega

/-- The neighbour weights' one block is the whole matrix. -/
theorem neigh_weights_block0 : (iblk0 V c 4 t : Vec Ideal S128x128 .f32) = (V c main_arg4 : S128x128.Idx → EReal) := by
  obtain ⟨-, -, -, -, -, -, -, -, e0, e1, -⟩ := block_index0 t
  funext x
  show V c main_arg4 (((cfg0.win 4).blk t).view.emb x) = V c main_arg4 x
  refine congrArg _ (funext fun a => Fin.ext ?_)
  match a with
  | ⟨0, _⟩ => show win0_4.index t (0 : Fin 2) * 128 + 1 * (x 0).val = (x 0).val; omega
  | ⟨1, _⟩ => show win0_4.index t (1 : Fin 2) * 128 + 1 * (x 1).val = (x 1).val; omega

/-- The bias row's one block is the whole row. -/
theorem bias_block0 : (iblk0 V c 5 t : Vec Ideal S1x128 .f32) = (V c main_v13 : S1x128.Idx → EReal) := by
  obtain ⟨-, -, -, -, -, -, -, -, -, -, e0, e1, -⟩ := block_index0 t
  funext x
  show V c main_v13 (((cfg0.win 5).blk t).view.emb x) = V c main_v13 x
  refine congrArg _ (funext fun a => Fin.ext ?_)
  match a with
  | ⟨0, _⟩ => show win0_5.index t (0 : Fin 2) * 1 + 1 * (x 0).val = (x 0).val; omega
  | ⟨1, _⟩ => show win0_5.index t (1 : Fin 2) * 128 + 1 * (x 1).val = (x 1).val; omega

end Blocks

/-! ## One block of the output is one block of the layer -/

/-- If the six loaded blocks are the rows `4000·T …` of the layer's arrays (the weights and the bias whole), the
    body's result at entry `j` of the block is the layer at the entry `i` of the array that sits `4000·T` rows
    further down. -/
theorem body_entry0 (h agg : FVec Ideal S40000x128 .f32) (s : FVec Ideal S40000x1 .f32) (Ws Wn : FVec Ideal S128x128 .f32)
    (b : FVec Ideal S1x128 .f32) (x0 x1 : Vec Ideal S4000x128 .f32) (x2 : Vec Ideal S4000x1 .f32)
    (x3 x4 : Vec Ideal S128x128 .f32) (x5 : Vec Ideal S1x128 .f32) (T : Nat)
    (e0 : ∀ (p : Fin 4000) (k : Fin 128) (r : Fin 40000), r.val = T * 4000 + p.val → x0 (ix2 p k) = h (ix2 r k))
    (e1 : ∀ (p : Fin 4000) (k : Fin 128) (r : Fin 40000), r.val = T * 4000 + p.val → x1 (ix2 p k) = agg (ix2 r k))
    (e2 : ∀ (p : Fin 4000) (r : Fin 40000), r.val = T * 4000 + p.val → x2 (ix2 p 0) = s (ix2 r 0))
    (e3 : x3 = Ws) (e4 : x4 = Wn) (e5 : x5 = b)
    (j : S4000x128.Idx) (i : S40000x128.Idx) (hi0 : (i 0).val = T * 4000 + (j 0).val) (hi1 : (i 1).val = (j 1).val) :
    k0_pay1 x0 x1 x2 x3 x4 x5 j = Cert.Sage.layerRelu (d := 128) h agg s Ws Wn b i := by
  obtain ⟨p, q, rfl⟩ : ∃ (p : Fin 4000) (q : Fin 128), j = ix2 p q := ⟨j 0, j 1, eq_ix2 j⟩
  have hq : i 1 = q := Fin.ext hi1
  rw [pay0_entry]
  unfold Cert.Sage.layerRelu Cert.Sage.comb
  rw [hq, e3, e4, e5, e2 p (i 0) hi0]
  congr 3
  · exact Finset.sum_congr rfl fun k _ => by rw [e0 p k (i 0) hi0]
  · exact Finset.sum_congr rfl fun k _ => by rw [e1 p k (i 0) hi0]

section Array
variable (V : (c : Dev nD) → (b : Ref sig .tc) → Buf (Elt Ideal) ((c : Thread nD τ).loc b)) (c : Dev nD)

/-- What grid point `t` writes back is block `t` of the layer of the arrays the launch finds. -/
theorem flushed0 (t : Fin cfg0.N) :
    (dat0 (F := Ideal) V c).flushed 6 t = ((cfg0.win 6).blk t).view.read (Elt Ideal)
      (Cert.Sage.layerRelu (d := 128) (V c main_arg0) (V c main_v12) (V c main_v8) (V c main_arg3) (V c main_arg4) (V c main_v13)) := by
  show (cfg0.win 6).cut (grid0.coords t) ((dat0 V c).after 6 t) = _
  rw [after0_6]
  unfold out0_6
  rw [View.canon_unit_zero offsets_zero]
  simp only [View.ld_unit_zero (S := S4000x128) offsets_zero, View.ld_unit_zero (S := S4000x1) offsets_zero,
    View.ld_unit_zero (S := S128x128) offsets_zero, View.ld_unit_zero (S := S1x128) offsets_zero]
  obtain ⟨-, -, -, -, -, -, -, -, -, -, -, -, o0, o1⟩ := block_index0 t
  funext j
  show k0_pay1 (iblk0 V c 0 t) (iblk0 V c 1 t) (iblk0 V c 2 t) (iblk0 V c 3 t) (iblk0 V c 4 t) (iblk0 V c 5 t) j
    = Cert.Sage.layerRelu (d := 128) (V c main_arg0) (V c main_v12) (V c main_v8) (V c main_arg3) (V c main_arg4) (V c main_v13)
        (((cfg0.win 6).blk t).view.emb j)
  refine body_entry0 _ _ _ _ _ _ _ _ _ _ _ _ t.val (input_block0 V c t) (aggregate_block0 V c t) (scale_block0 V c t)
    (self_weights_block0 V c t) (neigh_weights_block0 V c t) (bias_block0 V c t) j _ ?_ ?_
  · show win0_6.index t (0 : Fin 2) * 4000 + 1 * (j 0).val = t.val * 4000 + (j 0).val; omega
  · show win0_6.index t (1 : Fin 2) * 128 + 1 * (j 1).val = (j 1).val; omega

/-- An index of the output array is in point `t`'s block iff each coordinate is in the block's range on its axis. -/
theorem mem_block0 (t : Fin cfg0.N) (i : S40000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v14).slice (win0_6.rect t)).set ↔ _
  rw [View.set_slice_whole, Rect.mem_set_unit]
  exact Iff.rfl

/-- The ten row blocks tile the output: row `r` is in the block of point `r / 4000`. -/
theorem covered0 (i : S40000x128.Idx) :
    ∃ t : Fin cfg0.N, (cfg0.win 6).flush t = true ∧ i ∈ ((cfg0.win 6).blk t).view.set := by
  have hi0 : (i 0).val < 40000 := (i 0).isLt
  have hi1 : (i 1).val < 128 := (i 1).isLt
  obtain ⟨t, ht⟩ : ∃ t : Fin cfg0.N, t.val = (i 0).val / 4000 :=
    ⟨⟨(i 0).val / 4000, by rw [show cfg0.N = 10 from N_0]; omega⟩, rfl⟩
  obtain ⟨-, -, -, -, -, -, -, -, -, -, -, -, o0, o1⟩ := block_index0 t
  refine ⟨t, flush0_6 t, ?_⟩
  rw [mem_block0]
  intro a
  match a with
  | ⟨0, _⟩ => show win0_6.index t (0 : Fin 2) * 4000 ≤ (i 0).val ∧ (i 0).val < win0_6.index t (0 : Fin 2) * 4000 + 4000; omega
  | ⟨1, _⟩ => show win0_6.index t (1 : Fin 2) * 128 ≤ (i 1).val ∧ (i 1).val < win0_6.index t (1 : Fin 2) * 128 + 128; omega

/-- THE FIRST LAUNCH: its output array ends as the rectified layer of the arrays it finds at entry. -/
theorem value0 : (dat0 (F := Ideal) V c).arrAt 6 cfg0.N
    = Cert.Sage.layerRelu (d := 128) (V c main_arg0) (V c main_v12) (V c main_v8) (V c main_arg3) (V c main_arg4) (V c main_v13) :=
  (dat0 (F := Ideal) V c).arrAt_eq_of_cover 6 _ (fun t _ => flushed0 V c t) covered0

end Array

end Cert.KernelIdeal.Region

end
-- ==== Proof.NetA.lean ====
/-
  The first layer on the kernel's side, as a function of the argument arrays: what the first launch leaves in its
  output array is the rectified layer of the input, its aggregate and the scale column (the region's value), each of
  those read back through the host operations before the launch. Beside it, what the first launch keeps.
-/
import proofs.«424202_j8555574854331_2_alg».proof.Proof.Gen.KernelIdeal.Frame
import proofs.«424202_j8555574854331_2_alg».proof.Proof.Spec
import proofs.«424202_j8555574854331_2_alg».proof.Proof.KernelHost
import proofs.«424202_j8555574854331_2_alg».proof.Proof.WalkA
import proofs.«424202_j8555574854331_2_alg».proof.Proof.Region0

set_option maxRecDepth 16384

noncomputable section

namespace Cert.KernelIdeal.NetA

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first layer's output: the rectified layer of the input `x`, its aggregate over the edges and the scale
    column, under the first pair of weight matrices and the first bias. -/
def H1 (c : Dev nD) : FVec Ideal S40000x128 .f32 :=
  Cert.Sage.layerRelu (d := 128) (m ((c : Thread nD τ).loc main_arg0))
    (Glue.aggOf (F := Ideal) (m ((c : Thread nD τ).loc main_arg0)) (m ((c : Thread nD τ).loc main_arg1)) (m ((c : Thread nD τ).loc main_arg2)))
    (Glue.scaleCol (F := Ideal) (m ((c : Thread nD τ).loc main_arg2)))
    (m ((c : Thread nD τ).loc main_arg3)) (m ((c : Thread nD τ).loc main_arg4))
    (Glue.biasRow (F := Ideal) (m ((c : Thread nD τ).loc main_arg5)))

/-- After the first launch its output array holds the first layer's output. -/
theorem W4_v14 (c : Dev nD) : W4 m ρ c (Proc.devRef .tc main_v14) = H1 m c := by
  refine ((W4_arr m ρ c 6).trans (Region.value0 (V3 m ρ) c)).trans ?_
  dsimp only [V3]
  rw [WalkA.W3_kept m ρ c main_arg0 (by decide), WalkA.W3_v12, WalkA.W3_v8, WalkA.W3_kept m ρ c main_arg3 (by decide),
    WalkA.W3_kept m ρ c main_arg4 (by decide), WalkA.W3_v13]
  rfl

/-- The first launch writes only its output array: the argument arrays read later are as launched. -/
theorem W4_kept (c : Dev nD) (b : Ref sig .tc)
    (hb : b ∈ [main_arg1, main_arg2, main_arg6, main_arg7, main_arg8, main_arg9, main_arg10, main_arg11]) :
    W4 m ρ c (Proc.devRef .tc b) = m ((c : Thread nD τ).loc b) := by
  simp only [List.mem_cons, List.not_mem_nil, or_false] at hb
  rcases hb with rfl | rfl | rfl | rfl | rfl | rfl | rfl | rfl <;>
    exact (W4_of_ne m ρ c _ (by decide)).trans (WalkA.W3_kept m ρ c _ (by decide))

/-- The scale column is an input of the first launch: it leaves it as it found it. -/
theorem W4_v8 (c : Dev nD) : W4 m ρ c (Proc.devRef .tc main_v8) = Glue.scaleCol (F := Ideal) (m ((c : Thread nD τ).loc main_arg2)) :=
  ((W4_arr m ρ c 2).trans (((dat0 (V3 m ρ) c).arrAt_in 2 rfl _).trans (A_eq0 (V3 m ρ) c 2))).trans (WalkA.W3_v8 m ρ c)

end Cert.KernelIdeal.NetA

end
-- ==== Proof.Region1.lean ====
/-
  The second launch of the kernel's program: its output array after the launch is the rectified graph layer of the
  arrays the launch finds at entry (the first launch's output as the layer input, the second aggregate, the same
  scale column, the second pair of weight matrices and the second bias row).

  Its body is the first launch's up to a cast between equal shapes, its windows are blocked the same way, and the ten
  blocks tile the output as before.
-/
import proofs.«424202_j8555574854331_2_alg».proof.Proof.Gen.KernelIdeal.Frame
import proofs.«424202_j8555574854331_2_alg».proof.Proof.Spec
import Idealize.ShloMosaic.Lib.Pipeline.Value
import Idealize.ShloMosaic.Lib.ValueIdx
import Idealize.ShloMosaic.PureOps.Ideal.Laws
import proofs.«424202_j8555574854331_2_alg».proof.Proof.Region0
set_option maxRecDepth 16384

noncomputable section

namespace Cert.KernelIdeal.Region

open Cert.KernelIdeal Cert.KernelIdeal.Gen Idealize.ShloMosaic Idealize.ShloMosaic.ValueIdx
open scoped BigOperators
open Idealize.ShloMosaic.TcCoe

/-! ## The second launch's body is the first's -/

/-- The second launch's body differs from the first's by one more cast between equal shapes: the same function of
    the six loaded blocks. -/
theorem body_same (x0 x1 : Vec Ideal S4000x128 .f32) (x2 : Vec Ideal S4000x1 .f32) (x3 x4 : Vec Ideal S128x128 .f32)
    (x5 : Vec Ideal S1x128 .f32) : k1_pay1 x0 x1 x2 x3 x4 x5 = k0_pay1 x0 x1 x2 x3 x4 x5 := by
  unfold k1_pay1 k0_pay1
  simp only [shapeCast_self]

/-! ## Where each window's block sits in its array -/

/-- The block indices at grid point `t`: the three row-blocked inputs and the output are at block row `t`, the two
    weight matrices and the bias row are whole (block (0, 0)). Decided over the ten points. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- Row `p` of the layer input's block at point `t` is row `4000·t + p` of the array. -/
theorem input_block1 (p : Fin 4000) (k : Fin 128) (r : Fin 40000) (hr : r.val = t.val * 4000 + p.val) :
    (iblk1 V c 0 t : Vec Ideal S4000x128 .f32) (ix2 p k) = (V c main_v14 : S40000x128.Idx → EReal) (ix2 r k) := by
  obtain ⟨e0, e1, -⟩ := block_index1 t
  show V c main_v14 (((cfg1.win 0).blk t).view.emb (ix2 p k)) = V c main_v14 (ix2 r k)
  refine congrArg _ (funext fun a => Fin.ext ?_)
  match a with
  | ⟨0, _⟩ => show win1_0.index t (0 : Fin 2) * 4000 + 1 * p.val = r.val; omega
  | ⟨1, _⟩ => show win1_0.index t (1 : Fin 2) * 128 + 1 * k.val = k.val; omega

/-- Row `p` of the aggregate's block at point `t` is row `4000·t + p` of the array. -/
theorem aggregate_block1 (p : Fin 4000) (k : Fin 128) (r : Fin 40000) (hr : r.val = t.val * 4000 + p.val) :
    (iblk1 V c 1 t : Vec Ideal S4000x128 .f32) (ix2 p k) = (V c main_v18 : S40000x128.Idx → EReal) (ix2 r k) := by
  obtain ⟨-, -, e0, e1, -⟩ := block_index1 t
  show V c main_v18 (((cfg1.win 1).blk t).view.emb (ix2 p k)) = V c main_v18 (ix2 r k)
  refine congrArg _ (funext fun a => Fin.ext ?_)
  match a with
  | ⟨0, _⟩ => show win1_1.index t (0 : Fin 2) * 4000 + 1 * p.val = r.val; omega
  | ⟨1, _⟩ => show win1_1.index t (1 : Fin 2) * 128 + 1 * k.val = k.val; omega

/-- Row `p` of the scale column's block at point `t` is row `4000·t + p` of the column. -/
theorem scale_block1 (p : Fin 4000) (r : Fin 40000) (hr : r.val = t.val * 4000 + p.val) :
    (iblk1 V c 2 t : Vec Ideal S4000x1 .f32) (ix2 p 0) = (V c main_v8 : S40000x1.Idx → EReal) (ix2 r 0) := by
  obtain ⟨-, -, -, -, e0, e1, -⟩ := block_index1 t
  show V c main_v8 (((cfg1.win 2).blk t).view.emb (ix2 p 0)) = V c main_v8 (ix2 r 0)
  refine congrArg _ (funext fun a => Fin.ext ?_)
  match a with
  | ⟨0, _⟩ => show win1_2.index t (0 : Fin 2) * 4000 + 1 * p.val = r.val; omega
  | ⟨1, _⟩ => show win1_2.index t (1 : Fin 2) * 1 + 1 * 0 = 0; omega

/-- The self weights' one block is the whole matrix. -/
theorem self_weights_block1 : (iblk1 V c 3 t : Vec Ideal S128x128 .f32) = (V c main_arg6 : S128x128.Idx → EReal) := by
  obtain ⟨-, -, -, -, -, -, e0, e1, -⟩ := block_index1 t
  funext x
  show V c main_arg6 (((cfg1.win 3).blk t).view.emb x) = V c main_arg6 x
  refine congrArg _ (funext fun a => Fin.ext ?_)
  match a with
  | ⟨0, _⟩ => show win1_3.index t (0 : Fin 2) * 128 + 1 * (x 0).val = (x 0).val; omega
  | ⟨1, _⟩ => show win1_3.index t (1 : Fin 2) * 128 + 1 * (x 1).val = (x 1).val; omega

/-- The neighbour weights' one block is the whole matrix. -/
theorem neigh_weights_block1 : (iblk1 V c 4 t : Vec Ideal S128x128 .f32) = (V c main_arg7 : S128x128.Idx → EReal) := by
  obtain ⟨-, -, -, -, -, -, -, -, e0, e1, -⟩ := block_index1 t
  funext x
  show V c main_arg7 (((cfg1.win 4).blk t).view.emb x) = V c main_arg7 x
  refine congrArg _ (funext fun a => Fin.ext ?_)
  match a with
  | ⟨0, _⟩ => show win1_4.index t (0 : Fin 2) * 128 + 1 * (x 0).val = (x 0).val; omega
  | ⟨1, _⟩ => show win1_4.index t (1 : Fin 2) * 128 + 1 * (x 1).val = (x 1).val; omega

/-- The bias row's one block is the whole row. -/
theorem bias_block1 : (iblk1 V c 5 t : Vec Ideal S1x128 .f32) = (V c main_v19 : S1x128.Idx → EReal) := by
  obtain ⟨-, -, -, -, -, -, -, -, -, -, e0, e1, -⟩ := block_index1 t
  funext x
  show V c main_v19 (((cfg1.win 5).blk t).view.emb x) = V c main_v19 x
  refine congrArg _ (funext fun a => Fin.ext ?_)
  match a with
  | ⟨0, _⟩ => show win1_5.index t (0 : Fin 2) * 1 + 1 * (x 0).val = (x 0).val; omega
  | ⟨1, _⟩ => show win1_5.index t (1 : Fin 2) * 128 + 1 * (x 1).val = (x 1).val; omega

end Blocks

section Array
variable (V : (c : Dev nD) → (b : Ref sig .tc) → Buf (Elt Ideal) ((c : Thread nD τ).loc b)) (c : Dev nD)

/-- What grid point `t` writes back is block `t` of the layer of the arrays the launch finds. -/
theorem flushed1 (t : Fin cfg1.N) :
    (dat1 (F := Ideal) V c).flushed 6 t = ((cfg1.win 6).blk t).view.read (Elt Ideal)
      (Cert.Sage.layerRelu (d := 128) (V c main_v14) (V c main_v18) (V c main_v8) (V c main_arg6) (V c main_arg7) (V c main_v19)) := by
  show (cfg1.win 6).cut (grid1.coords t) ((dat1 V c).after 6 t) = _
  rw [after1_6]
  unfold out1_6
  rw [View.canon_unit_zero offsets_zero]
  simp only [View.ld_unit_zero (S := S4000x128) offsets_zero, View.ld_unit_zero (S := S4000x1) offsets_zero,
    View.ld_unit_zero (S := S128x128) offsets_zero, View.ld_unit_zero (S := S1x128) offsets_zero]
  obtain ⟨-, -, -, -, -, -, -, -, -, -, -, -, o0, o1⟩ := block_index1 t
  funext j
  show k1_pay1 (iblk1 V c 0 t) (iblk1 V c 1 t) (iblk1 V c 2 t) (iblk1 V c 3 t) (iblk1 V c 4 t) (iblk1 V c 5 t) j
    = Cert.Sage.layerRelu (d := 128) (V c main_v14) (V c main_v18) (V c main_v8) (V c main_arg6) (V c main_arg7) (V c main_v19)
        (((cfg1.win 6).blk t).view.emb j)
  rw [body_same]
  refine body_entry0 _ _ _ _ _ _ _ _ _ _ _ _ t.val (input_block1 V c t) (aggregate_block1 V c t) (scale_block1 V c t)
    (self_weights_block1 V c t) (neigh_weights_block1 V c t) (bias_block1 V c t) j _ ?_ ?_
  · show win1_6.index t (0 : Fin 2) * 4000 + 1 * (j 0).val = t.val * 4000 + (j 0).val; omega
  · show win1_6.index t (1 : Fin 2) * 128 + 1 * (j 1).val = (j 1).val; omega

/-- An index of the output array is in point `t`'s block iff each coordinate is in the block's range on its axis. -/
theorem mem_block1 (t : Fin cfg1.N) (i : S40000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v20).slice (win1_6.rect t)).set ↔ _
  rw [View.set_slice_whole, Rect.mem_set_unit]
  exact Iff.rfl

/-- The ten row blocks tile the output: row `r` is in the block of point `r / 4000`. -/
theorem covered1 (i : S40000x128.Idx) :
    ∃ t : Fin cfg1.N, (cfg1.win 6).flush t = true ∧ i ∈ ((cfg1.win 6).blk t).view.set := by
  have hi0 : (i 0).val < 40000 := (i 0).isLt
  have hi1 : (i 1).val < 128 := (i 1).isLt
  obtain ⟨t, ht⟩ : ∃ t : Fin cfg1.N, t.val = (i 0).val / 4000 :=
    ⟨⟨(i 0).val / 4000, by rw [show cfg1.N = 10 from N_1]; omega⟩, rfl⟩
  obtain ⟨-, -, -, -, -, -, -, -, -, -, -, -, o0, o1⟩ := block_index1 t
  refine ⟨t, flush1_6 t, ?_⟩
  rw [mem_block1]
  intro a
  match a with
  | ⟨0, _⟩ => show win1_6.index t (0 : Fin 2) * 4000 ≤ (i 0).val ∧ (i 0).val < win1_6.index t (0 : Fin 2) * 4000 + 4000; omega
  | ⟨1, _⟩ => show win1_6.index t (1 : Fin 2) * 128 ≤ (i 1).val ∧ (i 1).val < win1_6.index t (1 : Fin 2) * 128 + 128; omega

/-- THE SECOND LAUNCH: its output array ends as the rectified layer of the arrays it finds at entry. -/
theorem value1 : (dat1 (F := Ideal) V c).arrAt 6 cfg1.N
    = Cert.Sage.layerRelu (d := 128) (V c main_v14) (V c main_v18) (V c main_v8) (V c main_arg6) (V c main_arg7) (V c main_v19) :=
  (dat1 (F := Ideal) V c).arrAt_eq_of_cover 6 _ (fun t _ => flushed1 V c t) covered1

end Array

end Cert.KernelIdeal.Region

end
-- ==== Proof.NetB.lean ====
/-
  The second layer on the kernel's side: the second launch's output array is the rectified layer of the first
  layer's output, its aggregate and the same scale column, under the second weights and bias.
-/
import proofs.«424202_j8555574854331_2_alg».proof.Proof.Gen.KernelIdeal.Frame
import proofs.«424202_j8555574854331_2_alg».proof.Proof.Spec
import proofs.«424202_j8555574854331_2_alg».proof.Proof.KernelHost
import proofs.«424202_j8555574854331_2_alg».proof.Proof.WalkB
import proofs.«424202_j8555574854331_2_alg».proof.Proof.NetA
import proofs.«424202_j8555574854331_2_alg».proof.Proof.Region1

set_option maxRecDepth 16384

noncomputable section

namespace Cert.KernelIdeal.NetB

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Cert.KernelIdeal.NetA

/-- The second layer's output. -/
def H2 (c : Dev nD) : FVec Ideal S40000x128 .f32 :=
  Cert.Sage.layerRelu (d := 128) (H1 m c)
    (Glue.aggOf (F := Ideal) (H1 m c) (m ((c : Thread nD τ).loc main_arg1)) (m ((c : Thread nD τ).loc main_arg2)))
    (Glue.scaleCol (F := Ideal) (m ((c : Thread nD τ).loc main_arg2)))
    (m ((c : Thread nD τ).loc main_arg6)) (m ((c : Thread nD τ).loc main_arg7))
    (Glue.biasRow (F := Ideal) (m ((c : Thread nD τ).loc main_arg8)))

/-- At the second launch's entry the argument arrays still to be read are as launched. -/
theorem W6_args (c : Dev nD) (b : Ref sig .tc)
    (hb : b ∈ [main_arg1, main_arg2, main_arg6, main_arg7, main_arg9, main_arg10, main_arg11]) :
    W6 m ρ c (Proc.devRef .tc b) = m ((c : Thread nD τ).loc b) := by
  simp only [List.mem_cons, List.not_mem_nil, or_false] at hb
  rcases hb with rfl | rfl | rfl | rfl | rfl | rfl | rfl <;>
    exact (WalkB.W6_kept m ρ c _ (by decide)).trans (W4_kept m ρ c _ (by decide))

theorem W6_v14 (c : Dev nD) : W6 m ρ c (Proc.devRef .tc main_v14) = H1 m c :=
  (WalkB.W6_kept m ρ c main_v14 (by decide)).trans (W4_v14 m ρ c)

theorem W6_v8 (c : Dev nD) : W6 m ρ c (Proc.devRef .tc main_v8) = Glue.scaleCol (F := Ideal) (m ((c : Thread nD τ).loc main_arg2)) :=
  (WalkB.W6_kept m ρ c main_v8 (by decide)).trans (W4_v8 m ρ c)

/-- The second aggregate is the aggregate of the first layer's output. -/
theorem W6_v18 (c : Dev nD) : W6 m ρ c (Proc.devRef .tc main_v18)
    = Glue.aggOf (F := Ideal) (H1 m c) (m ((c : Thread nD τ).loc main_arg1)) (m ((c : Thread nD τ).loc main_arg2)) := by
  rw [WalkB.W6_v18, W4_v14, W4_kept m ρ c main_arg1 (by decide), W4_kept m ρ c main_arg2 (by decide)]

theorem W6_v19 (c : Dev nD) : W6 m ρ c (Proc.devRef .tc main_v19) = Glue.biasRow (F := Ideal) (m ((c : Thread nD τ).loc main_arg8)) := by
  rw [WalkB.W6_v19, W4_kept m ρ c main_arg8 (by decide)]

/-- After the second launch its output array holds the second layer's output. -/
theorem W7_v20 (c : Dev nD) : W7 m ρ c (Proc.devRef .tc main_v20) = H2 m c := by
  refine ((W7_arr m ρ c 6).trans (Region.value1 (V6 m ρ) c)).trans ?_
  dsimp only [V6]
  rw [W6_v14, W6_v18, W6_v8, W6_args m ρ c main_arg6 (by decide), W6_args m ρ c main_arg7 (by decide), W6_v19]
  rfl

/-- The second launch writes only its output array. -/
theorem W7_kept (c : Dev nD) (b : Ref sig .tc) (hb : b ∈ [main_arg1, main_arg2, main_arg9, main_arg10, main_arg11]) :
    W7 m ρ c (Proc.devRef .tc b) = m ((c : Thread nD τ).loc b) := by
  simp only [List.mem_cons, List.not_mem_nil, or_false] at hb
  rcases hb with rfl | rfl | rfl | rfl | rfl <;>
    exact (W7_of_ne m ρ c _ (by decide)).trans (W6_args m ρ c _ (by decide))

/-- The scale column is an input of the second launch too. -/
theorem W7_v8 (c : Dev nD) : W7 m ρ c (Proc.devRef .tc main_v8) = Glue.scaleCol (F := Ideal) (m ((c : Thread nD τ).loc main_arg2)) :=
  ((W7_arr m ρ c 2).trans (((dat1 (V6 m ρ) c).arrAt_in 2 rfl _).trans (A_eq1 (V6 m ρ) c 2))).trans (W6_v8 m ρ c)

end Cert.KernelIdeal.NetB

end
-- ==== Proof.Region2.lean ====
/-
  The third launch of the kernel's program: its output array after the launch is the graph layer without rectifier,
  of output width 47, of the arrays the launch finds at entry (the second launch's output as the layer input, the
  third aggregate, the same scale column, the third pair of weight matrices and the third bias row).

  The body's arithmetic at one entry of a block is the layer's formula with the block's own rows in place of the
  array's: two matrix products with 128×47 matrices accumulated from zero, their sum, the bias. The windows are
  blocked as in the earlier launches, and the ten blocks tile the output.
-/
import proofs.«424202_j8555574854331_2_alg».proof.Proof.Gen.KernelIdeal.Frame
import proofs.«424202_j8555574854331_2_alg».proof.Proof.Spec
import Idealize.ShloMosaic.Lib.Pipeline.Value
import Idealize.ShloMosaic.Lib.ValueIdx
import Idealize.ShloMosaic.PureOps.Ideal.Laws
import proofs.«424202_j8555574854331_2_alg».proof.Proof.Region0
set_option maxRecDepth 16384

noncomputable section

namespace Cert.KernelIdeal.Region

open Cert.KernelIdeal Cert.KernelIdeal.Gen Idealize.ShloMosaic Idealize.ShloMosaic.ValueIdx
open scoped BigOperators
open Idealize.ShloMosaic.TcCoe

/-! ## The matrix product of a row block with a 128×47 weight matrix, entry by entry -/

/-- The left operand's index at output entry `i` and contraction index `q`: the output's row on axis 0. -/
theorem lhsIdx_row47 (i : S4000x47.Idx) (q : dot_S4000x128_S128x47_S4000x47_1_0_0_1_n_n.contr.Idx) :
    (dot_S4000x128_S128x47_S4000x47_1_0_0_1_n_n.lhsIdx i q 0).val = (i 0).val := by
  unfold DotDims.lhsIdx
  rw [dif_neg (show ¬(0 : Fin S4000x128.rank) ∈ dot_S4000x128_S128x47_S4000x47_1_0_0_1_n_n.lhsBatch by decide), dif_pos (show (0 : Fin S4000x128.rank) ∈ dot_S4000x128_S128x47_S4000x47_1_0_0_1_n_n.lhsNonContracting by decide)]
  rfl
/-- … and the contraction index on axis 1. -/
theorem lhsIdx_col47 (i : S4000x47.Idx) (q : dot_S4000x128_S128x47_S4000x47_1_0_0_1_n_n.contr.Idx) :
    (dot_S4000x128_S128x47_S4000x47_1_0_0_1_n_n.lhsIdx i q 1).val = (q ⟨0, by decide⟩).val :=
  dot_S4000x128_S128x47_S4000x47_1_0_0_1_n_n.lhsIdx_val_of_single rfl i q
/-- The right operand's index: the contraction index on axis 0, -/
theorem rhsIdx_row47 (i : S4000x47.Idx) (q : dot_S4000x128_S128x47_S4000x47_1_0_0_1_n_n.contr.Idx) :
    (dot_S4000x128_S128x47_S4000x47_1_0_0_1_n_n.rhsIdx i q 0).val = (q ⟨0, by decide⟩).val :=
  dot_S4000x128_S128x47_S4000x47_1_0_0_1_n_n.rhsIdx_val_of_single rfl i q
/-- … and the output's column on axis 1. -/
theorem rhsIdx_col47 (i : S4000x47.Idx) (q : dot_S4000x128_S128x47_S4000x47_1_0_0_1_n_n.contr.Idx) :
    (dot_S4000x128_S128x47_S4000x47_1_0_0_1_n_n.rhsIdx i q 1).val = (i 1).val := by
  unfold DotDims.rhsIdx
  rw [dif_neg (show ¬(1 : Fin S128x47.rank) ∈ dot_S4000x128_S128x47_S4000x47_1_0_0_1_n_n.rhsBatch by decide), dif_pos (show (1 : Fin S128x47.rank) ∈ dot_S4000x128_S128x47_S4000x47_1_0_0_1_n_n.rhsNonContracting by decide)]
  rfl

/-- A block of 4000 rows times a 128×47 matrix, accumulated from zero: entry (p, q) is the sum over the 128 inner
    indices `k` of `l[p,k] · r[k,q]`. -/
theorem matmul_entry47 {φ₁ φ₂ : FTy} (l : FVec Ideal S4000x128 φ₁) (r : FVec Ideal S128x47 φ₂) (p : Fin 4000) (q : Fin 47) :
    matmul dot_S4000x128_S128x47_S4000x47_1_0_0_1_n_n none l r (constant S4000x47 .f32 0x00000000#32) (ix2 p q)
      = ∑ k : Fin 128, l (ix2 p k) * r (ix2 k q) := by
  simp only [matmul]
  rw [Ideal.matmul_constant_zero_apply, ← Equiv.sum_comp (ValueIdx.contrEquiv1 dot_S4000x128_S128x47_S4000x47_1_0_0_1_n_n 128 rfl rfl).symm]
  refine Finset.sum_congr rfl fun k _ => ?_
  have hk := ValueIdx.contrEquiv1_symm_val dot_S4000x128_S128x47_S4000x47_1_0_0_1_n_n 128 rfl rfl k
  have el : dot_S4000x128_S128x47_S4000x47_1_0_0_1_n_n.lhsIdx (ix2 p q) ((ValueIdx.contrEquiv1 dot_S4000x128_S128x47_S4000x47_1_0_0_1_n_n 128 rfl rfl).symm k) = ix2 p k := funext fun a => Fin.ext (by
    match a with
    | ⟨0, _⟩ => exact lhsIdx_row47 _ _
    | ⟨1, _⟩ => exact (lhsIdx_col47 _ _).trans hk)
  have er : dot_S4000x128_S128x47_S4000x47_1_0_0_1_n_n.rhsIdx (ix2 p q) ((ValueIdx.contrEquiv1 dot_S4000x128_S128x47_S4000x47_1_0_0_1_n_n 128 rfl rfl).symm k) = ix2 k q := funext fun a => Fin.ext (by
    match a with
    | ⟨0, _⟩ => exact (rhsIdx_row47 _ _).trans hk
    | ⟨1, _⟩ => exact rhsIdx_col47 _ _)
  rw [el, er]

/-- The bias row of width 47 spread over the 4000 rows: entry (p, q) is the row's entry in column q. -/
theorem spread_row47 (x : FVec Ideal S1x47 .f32) (p : Fin 4000) (q : Fin 47) :
    broadcastTo S4000x47 x broadcasts_S1x47_S4000x47 (ix2 p q) = x (ix2 0 q) :=
  broadcastTo_apply x broadcasts_S1x47_S4000x47 (ix2 p q) (ix2 0 q) (fun a => match a with
    | ⟨0, _⟩ => by show 0 = if (1 : Nat) = 1 then 0 else p.val; rw [if_pos rfl]
    | ⟨1, _⟩ => by show q.val = if (47 : Nat) = 1 then 0 else q.val; rw [if_neg (by decide)])

/-! ## The body's arithmetic at an entry of the block -/

/-- Entry (p, q) of what the body stores: the self term, the neighbour term (aggregate times the row's scale, then
    the neighbour weights), the bias. Rounding to the narrower format is the identity on the extended reals, and
    the shape casts are between equal shapes. -/
theorem pay2_entry (x0 x1 : Vec Ideal S4000x128 .f32) (x2 : Vec Ideal S4000x1 .f32) (x3 x4 : Vec Ideal S128x47 .f32)
    (x5 : Vec Ideal S1x47 .f32) (p : Fin 4000) (q : Fin 47) :
    k2_pay1 x0 x1 x2 x3 x4 x5 (ix2 p q)
      = (∑ k : Fin 128, x0 (ix2 p k) * x3 (ix2 k q))
          + (∑ k : Fin 128, (x1 (ix2 p k) * x2 (ix2 p 0)) * x4 (ix2 k q)) + x5 (ix2 0 q) := by
  unfold k2_pay1
  simp only [shapeCast_self]
  rw [addf_apply, addf_apply, matmul_entry47, matmul_entry47, spread_row47]
  simp only [truncf_apply, mulf_apply, spread_col]

/-! ## Where each window's block sits in its array -/

/-- The block indices at grid point `t`: the three row-blocked inputs and the output are at block row `t`, the two
    weight matrices and the bias row are whole (block (0, 0)). Decided over the ten points. -/
theorem block_index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- Row `p` of the layer input's block at point `t` is row `4000·t + p` of the array. -/
theorem input_block2 (p : Fin 4000) (k : Fin 128) (r : Fin 40000) (hr : r.val = t.val * 4000 + p.val) :
    (iblk2 V c 0 t : Vec Ideal S4000x128 .f32) (ix2 p k) = (V c main_v20 : S40000x128.Idx → EReal) (ix2 r k) := by
  obtain ⟨e0, e1, -⟩ := block_index2 t
  show V c main_v20 (((cfg2.win 0).blk t).view.emb (ix2 p k)) = V c main_v20 (ix2 r k)
  refine congrArg _ (funext fun a => Fin.ext ?_)
  match a with
  | ⟨0, _⟩ => show win2_0.index t (0 : Fin 2) * 4000 + 1 * p.val = r.val; omega
  | ⟨1, _⟩ => show win2_0.index t (1 : Fin 2) * 128 + 1 * k.val = k.val; omega

/-- Row `p` of the aggregate's block at point `t` is row `4000·t + p` of the array. -/
theorem aggregate_block2 (p : Fin 4000) (k : Fin 128) (r : Fin 40000) (hr : r.val = t.val * 4000 + p.val) :
    (iblk2 V c 1 t : Vec Ideal S4000x128 .f32) (ix2 p k) = (V c main_v24 : S40000x128.Idx → EReal) (ix2 r k) := by
  obtain ⟨-, -, e0, e1, -⟩ := block_index2 t
  show V c main_v24 (((cfg2.win 1).blk t).view.emb (ix2 p k)) = V c main_v24 (ix2 r k)
  refine congrArg _ (funext fun a => Fin.ext ?_)
  match a with
  | ⟨0, _⟩ => show win2_1.index t (0 : Fin 2) * 4000 + 1 * p.val = r.val; omega
  | ⟨1, _⟩ => show win2_1.index t (1 : Fin 2) * 128 + 1 * k.val = k.val; omega

/-- Row `p` of the scale column's block at point `t` is row `4000·t + p` of the column. -/
theorem scale_block2 (p : Fin 4000) (r : Fin 40000) (hr : r.val = t.val * 4000 + p.val) :
    (iblk2 V c 2 t : Vec Ideal S4000x1 .f32) (ix2 p 0) = (V c main_v8 : S40000x1.Idx → EReal) (ix2 r 0) := by
  obtain ⟨-, -, -, -, e0, e1, -⟩ := block_index2 t
  show V c main_v8 (((cfg2.win 2).blk t).view.emb (ix2 p 0)) = V c main_v8 (ix2 r 0)
  refine congrArg _ (funext fun a => Fin.ext ?_)
  match a with
  | ⟨0, _⟩ => show win2_2.index t (0 : Fin 2) * 4000 + 1 * p.val = r.val; omega
  | ⟨1, _⟩ => show win2_2.index t (1 : Fin 2) * 1 + 1 * 0 = 0; omega

/-- The self weights' one block is the whole matrix. -/
theorem self_weights_block2 : (iblk2 V c 3 t : Vec Ideal S128x47 .f32) = (V c main_arg9 : S128x47.Idx → EReal) := by
  obtain ⟨-, -, -, -, -, -, e0, e1, -⟩ := block_index2 t
  funext x
  show V c main_arg9 (((cfg2.win 3).blk t).view.emb x) = V c main_arg9 x
  refine congrArg _ (funext fun a => Fin.ext ?_)
  match a with
  | ⟨0, _⟩ => show win2_3.index t (0 : Fin 2) * 128 + 1 * (x 0).val = (x 0).val; omega
  | ⟨1, _⟩ => show win2_3.index t (1 : Fin 2) * 47 + 1 * (x 1).val = (x 1).val; omega

/-- The neighbour weights' one block is the whole matrix. -/
theorem neigh_weights_block2 : (iblk2 V c 4 t : Vec Ideal S128x47 .f32) = (V c main_arg10 : S128x47.Idx → EReal) := by
  obtain ⟨-, -, -, -, -, -, -, -, e0, e1, -⟩ := block_index2 t
  funext x
  show V c main_arg10 (((cfg2.win 4).blk t).view.emb x) = V c main_arg10 x
  refine congrArg _ (funext fun a => Fin.ext ?_)
  match a with
  | ⟨0, _⟩ => show win2_4.index t (0 : Fin 2) * 128 + 1 * (x 0).val = (x 0).val; omega
  | ⟨1, _⟩ => show win2_4.index t (1 : Fin 2) * 47 + 1 * (x 1).val = (x 1).val; omega

/-- The bias row's one block is the whole row. -/
theorem bias_block2 : (iblk2 V c 5 t : Vec Ideal S1x47 .f32) = (V c main_v25 : S1x47.Idx → EReal) := by
  obtain ⟨-, -, -, -, -, -, -, -, -, -, e0, e1, -⟩ := block_index2 t
  funext x
  show V c main_v25 (((cfg2.win 5).blk t).view.emb x) = V c main_v25 x
  refine congrArg _ (funext fun a => Fin.ext ?_)
  match a with
  | ⟨0, _⟩ => show win2_5.index t (0 : Fin 2) * 1 + 1 * (x 0).val = (x 0).val; omega
  | ⟨1, _⟩ => show win2_5.index t (1 : Fin 2) * 47 + 1 * (x 1).val = (x 1).val; omega

end Blocks

/-! ## One block of the output is one block of the layer -/

/-- If the six loaded blocks are the rows `4000·T …` of the layer's arrays (the weights and the bias whole), the
    body's result at entry `j` of the block is the layer at the entry `i` of the array that sits `4000·T` rows
    further down. -/
theorem body_entry2 (h agg : FVec Ideal S40000x128 .f32) (s : FVec Ideal S40000x1 .f32) (Ws Wn : FVec Ideal S128x47 .f32)
    (b : FVec Ideal S1x47 .f32) (x0 x1 : Vec Ideal S4000x128 .f32) (x2 : Vec Ideal S4000x1 .f32)
    (x3 x4 : Vec Ideal S128x47 .f32) (x5 : Vec Ideal S1x47 .f32) (T : Nat)
    (e0 : ∀ (p : Fin 4000) (k : Fin 128) (r : Fin 40000), r.val = T * 4000 + p.val → x0 (ix2 p k) = h (ix2 r k))
    (e1 : ∀ (p : Fin 4000) (k : Fin 128) (r : Fin 40000), r.val = T * 4000 + p.val → x1 (ix2 p k) = agg (ix2 r k))
    (e2 : ∀ (p : Fin 4000) (r : Fin 40000), r.val = T * 4000 + p.val → x2 (ix2 p 0) = s (ix2 r 0))
    (e3 : x3 = Ws) (e4 : x4 = Wn) (e5 : x5 = b)
    (j : S4000x47.Idx) (i : S40000x47.Idx) (hi0 : (i 0).val = T * 4000 + (j 0).val) (hi1 : (i 1).val = (j 1).val) :
    k2_pay1 x0 x1 x2 x3 x4 x5 j = Cert.Sage.layer (d := 47) h agg s Ws Wn b i := by
  obtain ⟨p, q, rfl⟩ : ∃ (p : Fin 4000) (q : Fin 47), j = ix2 p q := ⟨j 0, j 1, eq_ix2 j⟩
  have hq : i 1 = q := Fin.ext hi1
  rw [pay2_entry]
  unfold Cert.Sage.layer Cert.Sage.comb
  rw [hq, e3, e4, e5, e2 p (i 0) hi0]
  congr 2
  · exact Finset.sum_congr rfl fun k _ => by rw [e0 p k (i 0) hi0]
  · exact Finset.sum_congr rfl fun k _ => by rw [e1 p k (i 0) hi0]

section Array
variable (V : (c : Dev nD) → (b : Ref sig .tc) → Buf (Elt Ideal) ((c : Thread nD τ).loc b)) (c : Dev nD)

/-- What grid point `t` writes back is block `t` of the layer of the arrays the launch finds. -/
theorem flushed2 (t : Fin cfg2.N) :
    (dat2 (F := Ideal) V c).flushed 6 t = ((cfg2.win 6).blk t).view.read (Elt Ideal)
      (Cert.Sage.layer (d := 47) (V c main_v20) (V c main_v24) (V c main_v8) (V c main_arg9) (V c main_arg10) (V c main_v25)) := by
  show (cfg2.win 6).cut (grid2.coords t) ((dat2 V c).after 6 t) = _
  rw [after2_6]
  unfold out2_6
  rw [View.canon_unit_zero offsets_zero]
  simp only [View.ld_unit_zero (S := S4000x128) offsets_zero, View.ld_unit_zero (S := S4000x1) offsets_zero,
    View.ld_unit_zero (S := S128x47) offsets_zero, View.ld_unit_zero (S := S1x47) offsets_zero]
  obtain ⟨-, -, -, -, -, -, -, -, -, -, -, -, o0, o1⟩ := block_index2 t
  funext j
  show k2_pay1 (iblk2 V c 0 t) (iblk2 V c 1 t) (iblk2 V c 2 t) (iblk2 V c 3 t) (iblk2 V c 4 t) (iblk2 V c 5 t) j
    = Cert.Sage.layer (d := 47) (V c main_v20) (V c main_v24) (V c main_v8) (V c main_arg9) (V c main_arg10) (V c main_v25)
        (((cfg2.win 6).blk t).view.emb j)
  refine body_entry2 _ _ _ _ _ _ _ _ _ _ _ _ t.val (input_block2 V c t) (aggregate_block2 V c t) (scale_block2 V c t)
    (self_weights_block2 V c t) (neigh_weights_block2 V c t) (bias_block2 V c t) j _ ?_ ?_
  · show win2_6.index t (0 : Fin 2) * 4000 + 1 * (j 0).val = t.val * 4000 + (j 0).val; omega
  · show win2_6.index t (1 : Fin 2) * 47 + 1 * (j 1).val = (j 1).val; omega

/-- An index of the output array is in point `t`'s block iff each coordinate is in the block's range on its axis. -/
theorem mem_block2 (t : Fin cfg2.N) (i : S40000x47.Idx) :
    i ∈ ((cfg2.win 6).blk t).view.set ↔ ∀ a : Fin 2, win2_6.index t a * S4000x47.size a ≤ (i a).val ∧ (i a).val < win2_6.index t a * S4000x47.size a + S4000x47.size a := by
  show i ∈ ((View.whole main_v26).slice (win2_6.rect t)).set ↔ _
  rw [View.set_slice_whole, Rect.mem_set_unit]
  exact Iff.rfl

/-- The ten row blocks tile the output: row `r` is in the block of point `r / 4000`. -/
theorem covered2 (i : S40000x47.Idx) :
    ∃ t : Fin cfg2.N, (cfg2.win 6).flush t = true ∧ i ∈ ((cfg2.win 6).blk t).view.set := by
  have hi0 : (i 0).val < 40000 := (i 0).isLt
  have hi1 : (i 1).val < 47 := (i 1).isLt
  obtain ⟨t, ht⟩ : ∃ t : Fin cfg2.N, t.val = (i 0).val / 4000 :=
    ⟨⟨(i 0).val / 4000, by rw [show cfg2.N = 10 from N_2]; omega⟩, rfl⟩
  obtain ⟨-, -, -, -, -, -, -, -, -, -, -, -, o0, o1⟩ := block_index2 t
  refine ⟨t, flush2_6 t, ?_⟩
  rw [mem_block2]
  intro a
  match a with
  | ⟨0, _⟩ => show win2_6.index t (0 : Fin 2) * 4000 ≤ (i 0).val ∧ (i 0).val < win2_6.index t (0 : Fin 2) * 4000 + 4000; omega
  | ⟨1, _⟩ => show win2_6.index t (1 : Fin 2) * 47 ≤ (i 1).val ∧ (i 1).val < win2_6.index t (1 : Fin 2) * 47 + 47; omega

/-- THE THIRD LAUNCH: its output array ends as the layer (no rectifier, width 47) of the arrays it finds at entry. -/
theorem value2 : (dat2 (F := Ideal) V c).arrAt 6 cfg2.N
    = Cert.Sage.layer (d := 47) (V c main_v20) (V c main_v24) (V c main_v8) (V c main_arg9) (V c main_arg10) (V c main_v25) :=
  (dat2 (F := Ideal) V c).arrAt_eq_of_cover 6 _ (fun t _ => flushed2 V c t) covered2

end Array

end Cert.KernelIdeal.Region

end
-- ==== Proof.NetC.lean ====
/-
  The third layer on the kernel's side, and with it the program's result: the last launch's output array is the
  (unrectified) layer of the second layer's output, its aggregate and the scale column, under the last weights and
  bias — the whole network as one function of the twelve argument arrays.
-/
import proofs.«424202_j8555574854331_2_alg».proof.Proof.Gen.KernelIdeal.Frame
import proofs.«424202_j8555574854331_2_alg».proof.Proof.Spec
import proofs.«424202_j8555574854331_2_alg».proof.Proof.KernelHost
import proofs.«424202_j8555574854331_2_alg».proof.Proof.WalkC
import proofs.«424202_j8555574854331_2_alg».proof.Proof.NetA
import proofs.«424202_j8555574854331_2_alg».proof.Proof.NetB
import proofs.«424202_j8555574854331_2_alg».proof.Proof.Region2

set_option maxRecDepth 16384

noncomputable section

namespace Cert.KernelIdeal.NetC

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

open Cert.KernelIdeal.NetA Cert.KernelIdeal.NetB

/-- The network's output: the third layer, of width 47, without rectifier. -/
def H3 (c : Dev nD) : FVec Ideal S40000x47 .f32 :=
  Cert.Sage.layer (d := 47) (H2 m c)
    (Glue.aggOf (F := Ideal) (H2 m c) (m ((c : Thread nD τ).loc main_arg1)) (m ((c : Thread nD τ).loc main_arg2)))
    (Glue.scaleCol (F := Ideal) (m ((c : Thread nD τ).loc main_arg2)))
    (m ((c : Thread nD τ).loc main_arg9)) (m ((c : Thread nD τ).loc main_arg10))
    (Glue.biasRow47 (F := Ideal) (m ((c : Thread nD τ).loc main_arg11)))

theorem W9_v20 (c : Dev nD) : W9 m ρ c (Proc.devRef .tc main_v20) = H2 m c :=
  (WalkC.W9_kept m ρ c main_v20 (by decide)).trans (W7_v20 m ρ c)

theorem W9_v8 (c : Dev nD) : W9 m ρ c (Proc.devRef .tc main_v8) = Glue.scaleCol (F := Ideal) (m ((c : Thread nD τ).loc main_arg2)) :=
  (WalkC.W9_kept m ρ c main_v8 (by decide)).trans (W7_v8 m ρ c)

theorem W9_arg9 (c : Dev nD) : W9 m ρ c (Proc.devRef .tc main_arg9) = m ((c : Thread nD τ).loc main_arg9) :=
  (WalkC.W9_kept m ρ c main_arg9 (by decide)).trans (W7_kept m ρ c main_arg9 (by decide))

theorem W9_arg10 (c : Dev nD) : W9 m ρ c (Proc.devRef .tc main_arg10) = m ((c : Thread nD τ).loc main_arg10) :=
  (WalkC.W9_kept m ρ c main_arg10 (by decide)).trans (W7_kept m ρ c main_arg10 (by decide))

/-- The third aggregate is the aggregate of the second layer's output. -/
theorem W9_v24 (c : Dev nD) : W9 m ρ c (Proc.devRef .tc main_v24)
    = Glue.aggOf (F := Ideal) (H2 m c) (m ((c : Thread nD τ).loc main_arg1)) (m ((c : Thread nD τ).loc main_arg2)) := by
  rw [WalkC.W9_v24, W7_v20, W7_kept m ρ c main_arg1 (by decide), W7_kept m ρ c main_arg2 (by decide)]

theorem W9_v25 (c : Dev nD) : W9 m ρ c (Proc.devRef .tc main_v25) = Glue.biasRow47 (F := Ideal) (m ((c : Thread nD τ).loc main_arg11)) := by
  rw [WalkC.W9_v25, W7_kept m ρ c main_arg11 (by decide)]

/-- THE RESULT: at the last segment boundary the result buffer holds the network's output. -/
theorem result (c : Dev nD) : W10 m ρ c (Proc.devRef .tc main_v26) = H3 m c := by
  refine ((W10_arr m ρ c 6).trans (Region.value2 (V9 m ρ) c)).trans ?_
  dsimp only [V9]
  rw [W9_v20, W9_v24, W9_v8, W9_arg9, W9_arg10, W9_v25]
  rfl

end Cert.KernelIdeal.NetC

end
-- ==== Proof.RefValue.lean ====
/-
  The reference program's result, re-expressed over the layer functions of the shared specification.

  The run of the reference states its result as one closed term of the argument arrays: three graph layers, each
  the sum of a self product, a neighbour product and a broadcast bias, the neighbour operand being the aggregate
  of gathered source rows divided by the broadcast clipped in-degree, with a maximum with zero after layers one and
  two. Here that term is first folded, syntactically, into three applications of one whole-array layer function,
  and then each layer is read at an index: the two contractions become sums over the 128 input columns, the
  broadcasts read their operand's row or column, and the quotient by the clipped in-degree (never zero) becomes the
  product with its reciprocal. The gather and the two scatters are never opened.
-/
import proofs.«424202_j8555574854331_2_alg».proof.Proof.Gen.ReferenceIdeal.Run
import proofs.«424202_j8555574854331_2_alg».proof.Proof.Gen.ReferenceIdeal.Read
import proofs.«424202_j8555574854331_2_alg».proof.Proof.Spec
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefGlue

open Cert.ReferenceIdeal Cert.ReferenceIdeal.Gen Idealize.ShloMosaic Idealize.ShloMosaic.ValueIdx Idealize.SL.Sem
open scoped BigOperators

/-! ## The host stretches of one layer, as functions of the arrays they read -/

/-- The source index as a column of start indices: an entry below zero has the node count added. -/
def wrapIdx (src : IVec S640000 32) : IVec S640000x1 32 :=
  broadcastInDim S640000x1 ![0] bcast_S640000_S640000x1_0
    (select (cmpi .slt src (broadcastInDim S640000 ![] bcast_S_S640000 (constantI S_ 32 0#32)))
      (addi src (broadcastInDim S640000 ![] bcast_S_S640000 (constantI S_ 32 40000#32))) src)

/-- The rows of `h` named by a column of start indices. -/
def rowsOf (h : FVec Ideal S40000x128 .f32) (w : IVec S640000x1 32) : FVec Ideal S640000x128 .f32 :=
  Host.gather gather_S40000x128_S640000x1_S640000x128_1_0_n_n_0_1_1128 h w

/-- Edge rows summed into the node rows the destination index names, from zero. -/
def sumInto (dst : IVec S640000 32) (u : FVec Ideal S640000x128 .f32) : FVec Ideal S40000x128 .f32 :=
  Host.scatterAdd scatter_S40000x128_S640000x1_S640000x128_1_0_0_1
    (broadcastInDim S40000x128 ![] bcast_S_S40000x128 (constant S_ .f32 0x00000000#32))
    (broadcastInDim S640000x1 ![0] bcast_S640000_S640000x1_0 dst) u

/-- The in-degree (a one summed per edge into its destination), clipped below at one. -/
def degClip (dst : IVec S640000 32) : FVec Ideal S40000 .f32 :=
  maximumf
    (Host.scatterAdd scatter_S40000_S640000x1_S640000_n_0_0_1
      (broadcastInDim S40000 ![] bcast_S_S40000 (constant S_ .f32 0x00000000#32))
      (broadcastInDim S640000x1 ![0] bcast_S640000_S640000x1_0 dst)
      (broadcastInDim S640000 ![] bcast_S_S640000 (constant S_ .f32 0x3F800000#32)))
    (broadcastInDim S40000 ![] bcast_S_S40000 (constant S_ .f32 0x3F800000#32))

/-- The neighbour aggregate of a layer's input: the source rows summed over the edges into each node. -/
def aggR (h : FVec Ideal S40000x128 .f32) (src dst : IVec S640000 32) : FVec Ideal S40000x128 .f32 :=
  sumInto dst (rowsOf h (wrapIdx src))

/-- The reciprocal of the clipped in-degree, as a column. -/
def scaleR (dst : IVec S640000 32) : FVec Ideal S40000x1 .f32 :=
  fun i => Ideal.div 1 (degClip dst (ix1 (i 0)))

/-- A bias vector as a one-row matrix (width 128). -/
def rowR (b : FVec Ideal S128 .f32) : FVec Ideal S1x128 .f32 := fun i => b (ix1 (i 1))

/-- A bias vector as a one-row matrix (width 47). -/
def rowR47 (b : FVec Ideal S47 .f32) : FVec Ideal S1x47 .f32 := fun i => b (ix1 (i 1))

/-- The three-layer network over the shared layer functions. -/
def net (x : FVec Ideal S40000x128 .f32) (src dst : IVec S640000 32)
    (W3 W4 : FVec Ideal S128x128 .f32) (b5 : FVec Ideal S128 .f32)
    (W6 W7 : FVec Ideal S128x128 .f32) (b8 : FVec Ideal S128 .f32)
    (W9 W10 : FVec Ideal S128x47 .f32) (b11 : FVec Ideal S47 .f32) : FVec Ideal S40000x47 .f32 :=
  let h1 := Cert.Sage.layerRelu (d := 128) x (aggR x src dst) (scaleR dst) W3 W4 (rowR b5)
  let h2 := Cert.Sage.layerRelu (d := 128) h1 (aggR h1 src dst) (scaleR dst) W6 W7 (rowR b8)
  Cert.Sage.layer (d := 47) h2 (aggR h2 src dst) (scaleR dst) W9 W10 (rowR47 b11)

/-! ## The reference's own whole-array term of one layer -/

/-- The broadcast zero a rectifier compares with. -/
def zeros : FVec Ideal S40000x128 .f32 :=
  broadcastInDim S40000x128 ![] bcast_S_S40000x128 (constant S_ .f32 0x00000000#32)

/-- One layer of width 128 as the reference spells it: self product plus neighbour product plus broadcast bias. -/
def refLayer128 (h : FVec Ideal S40000x128 .f32) (src dst : IVec S640000 32)
    (Ws Wn : FVec Ideal S128x128 .f32) (b : FVec Ideal S128 .f32) : FVec Ideal S40000x128 .f32 :=
  addf (addf (Host.dotGeneral dot_S40000x128_S128x128_S40000x128_1_0_0_1_n_n none h Ws)
      (Host.dotGeneral dot_S40000x128_S128x128_S40000x128_1_0_0_1_n_n none
        (Host.divf (aggR h src dst)
          (broadcastInDim S40000x128 ![0, 1] bcast_S40000x1_S40000x128_0_1
            (broadcastInDim S40000x1 ![0] bcast_S40000_S40000x1_0 (degClip dst)))) Wn))
    (broadcastInDim S40000x128 ![0, 1] bcast_S1x128_S40000x128_0_1 (broadcastInDim S1x128 ![1] bcast_S128_S1x128_1 b))

/-- The last layer, of width 47, as the reference spells it. -/
def refLayer47 (h : FVec Ideal S40000x128 .f32) (src dst : IVec S640000 32)
    (Ws Wn : FVec Ideal S128x47 .f32) (b : FVec Ideal S47 .f32) : FVec Ideal S40000x47 .f32 :=
  addf (addf (Host.dotGeneral dot_S40000x128_S128x47_S40000x47_1_0_0_1_n_n none h Ws)
      (Host.dotGeneral dot_S40000x128_S128x47_S40000x47_1_0_0_1_n_n none
        (Host.divf (aggR h src dst)
          (broadcastInDim S40000x128 ![0, 1] bcast_S40000x1_S40000x128_0_1
            (broadcastInDim S40000x1 ![0] bcast_S40000_S40000x1_0 (degClip dst)))) Wn))
    (broadcastInDim S40000x47 ![0, 1] bcast_S1x47_S40000x47_0_1 (broadcastInDim S1x47 ![1] bcast_S47_S1x47_1 b))

set_option maxRecDepth 8192 in
/-- The run's closed term is three applications of the layer term, a maximum with zero between them. -/
theorem res_fold (m : (ℓ : Loc nD τ sig) → Buf (Elt Ideal) ℓ) (c : Dev nD) :
    Cert.ReferenceIdeal.Value.res_main_v76 (F := Ideal) m c
      = refLayer47
          (maximumf
            (refLayer128
              (maximumf
                (refLayer128 (m ((c.tc : Thread nD τ).loc main_arg0)) (m ((c.tc : Thread nD τ).loc main_arg1))
                  (m ((c.tc : Thread nD τ).loc main_arg2)) (m ((c.tc : Thread nD τ).loc main_arg3))
                  (m ((c.tc : Thread nD τ).loc main_arg4)) (m ((c.tc : Thread nD τ).loc main_arg5)))
                zeros)
              (m ((c.tc : Thread nD τ).loc main_arg1)) (m ((c.tc : Thread nD τ).loc main_arg2))
              (m ((c.tc : Thread nD τ).loc main_arg6)) (m ((c.tc : Thread nD τ).loc main_arg7))
              (m ((c.tc : Thread nD τ).loc main_arg8)))
            zeros)
          (m ((c.tc : Thread nD τ).loc main_arg1)) (m ((c.tc : Thread nD τ).loc main_arg2))
          (m ((c.tc : Thread nD τ).loc main_arg9)) (m ((c.tc : Thread nD τ).loc main_arg10))
          (m ((c.tc : Thread nD τ).loc main_arg11)) := by
  unfold Cert.ReferenceIdeal.Value.res_main_v76 refLayer47 refLayer128 zeros aggR sumInto rowsOf wrapIdx degClip
  rfl

/-! ## Reading one layer at an index -/

/-- A contraction against a 128 × 128 weight matrix, read at row `r`, column `j`. -/
theorem dot128_apply (x : FVec Ideal S40000x128 .f32) (W : FVec Ideal S128x128 .f32) (r : Fin 40000) (j : Fin 128) :
    Host.dotGeneral dot_S40000x128_S128x128_S40000x128_1_0_0_1_n_n none x W (ix2 r j)
      = ∑ k : Fin 128, x (ix2 r k) * W (ix2 k j) := by
  have h := Cert.ReferenceIdeal.Read.val_main_v19_apply x W (ix2 r j)
  unfold Cert.ReferenceIdeal.Read.val_main_v19 at h
  refine h.trans (Finset.sum_congr rfl fun k _ => ?_)
  have el : Cert.ReferenceIdeal.Read.lidx_main_v19 (ix2 r j) k = ix2 r k := by
    funext a; match a with | ⟨0, _⟩ => rfl | ⟨1, _⟩ => rfl
  have er : Cert.ReferenceIdeal.Read.ridx_main_v19 (ix2 r j) k = ix2 k j := by
    funext a; match a with | ⟨0, _⟩ => rfl | ⟨1, _⟩ => rfl
  rw [el, er]

/-- The clipped in-degree broadcast along the columns reads the node's clipped in-degree. -/
theorem degCol_apply (D : FVec Ideal S40000 .f32) (r : Fin 40000) (k : Fin 128) :
    broadcastInDim S40000x128 ![0, 1] bcast_S40000x1_S40000x128_0_1
        (broadcastInDim S40000x1 ![0] bcast_S40000_S40000x1_0 D) (ix2 r k) = D (ix1 r) := by
  refine (broadcastInDim_apply _ bcast_S40000x1_S40000x128_0_1 _ (ix2 r k) (ix2 r 0) (fun a => match a with
    | ⟨0, _⟩ => by show r.val = if (40000 : Nat) = 1 then 0 else r.val; rw [if_neg (by decide)]
    | ⟨1, _⟩ => by show 0 = if (1 : Nat) = 1 then 0 else k.val; rw [if_pos rfl])).trans ?_
  exact broadcastInDim_apply _ bcast_S40000_S40000x1_0 D (ix2 r 0) (ix1 r) (fun a => match a with
    | ⟨0, _⟩ => by show r.val = if (40000 : Nat) = 1 then 0 else r.val; rw [if_neg (by decide)])

/-- A bias vector of width 128 broadcast along the rows reads its entry at the column. -/
theorem biasRows128_apply (b : FVec Ideal S128 .f32) (r : Fin 40000) (j : Fin 128) :
    broadcastInDim S40000x128 ![0, 1] bcast_S1x128_S40000x128_0_1
        (broadcastInDim S1x128 ![1] bcast_S128_S1x128_1 b) (ix2 r j) = b (ix1 j) := by
  refine (broadcastInDim_apply _ bcast_S1x128_S40000x128_0_1 _ (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])).trans ?_
  exact broadcastInDim_apply _ bcast_S128_S1x128_1 b (ix2 0 j) (ix1 j) (fun a => match a with
    | ⟨0, _⟩ => by show j.val = if (128 : Nat) = 1 then 0 else j.val; rw [if_neg (by decide)])

/-- The clipped in-degree is a maximum with one, so it is never zero. -/
theorem degClip_ne_zero (dst : IVec S640000 32) (r : Fin 40000) : degClip dst (ix1 r) ≠ 0 := by
  unfold degClip
  rw [maximumf_apply, broadcastInDim_scalar_apply, constant_apply, Ideal.ofBits_one_f32]
  exact Cert.Sage.max_one_ne_zero _

/-- The quotient of the aggregate by the broadcast clipped in-degree is the aggregate times the node's scale. -/
theorem quot_apply (A : FVec Ideal S40000x128 .f32) (dst : IVec S640000 32) (r : Fin 40000) (k : Fin 128) :
    Host.divf A (broadcastInDim S40000x128 ![0, 1] bcast_S40000x1_S40000x128_0_1
        (broadcastInDim S40000x1 ![0] bcast_S40000_S40000x1_0 (degClip dst))) (ix2 r k)
      = A (ix2 r k) * scaleR dst (ix2 r 0) := by
  rw [hostDivf_apply, degCol_apply]
  exact Cert.Sage.div_eq_mul_one_div _ _ (degClip_ne_zero dst r)

/-- A layer of width 128, as the reference spells it, is the shared layer function. -/
theorem refLayer128_eq (h : FVec Ideal S40000x128 .f32) (src dst : IVec S640000 32)
    (Ws Wn : FVec Ideal S128x128 .f32) (b : FVec Ideal S128 .f32) :
    refLayer128 h src dst Ws Wn b
      = Cert.Sage.layer (d := 128) h (aggR h src dst) (scaleR dst) Ws Wn (rowR b) := by
  funext i
  obtain ⟨r, j, rfl⟩ : ∃ (r : Fin 40000) (j : Fin 128), i = ix2 r j := ⟨i 0, i 1, eq_ix2 i⟩
  unfold refLayer128
  rw [addf_apply, addf_apply, dot128_apply, dot128_apply, biasRows128_apply]
  rw [Finset.sum_congr rfl fun k _ => congrArg (· * Wn (ix2 k j)) (quot_apply (aggR h src dst) dst r k)]
  rfl

/-- A contraction against a 128 × 47 weight matrix, read at row `r`, column `j`: the sum over the contraction
    index re-indexed through its one coordinate. -/
theorem dot47_apply (x : FVec Ideal S40000x128 .f32) (W : FVec Ideal S128x47 .f32) (r : Fin 40000) (j : Fin 47) :
    Host.dotGeneral dot_S40000x128_S128x47_S40000x47_1_0_0_1_n_n none x W (ix2 r j)
      = ∑ k : Fin 128, x (ix2 r k) * W (ix2 k j) := by
  simp only [Host.dotGeneral]
  rw [Ideal.dotGeneral_apply,
    ← Equiv.sum_comp (contrEquiv1 dot_S40000x128_S128x47_S40000x47_1_0_0_1_n_n 128 rfl rfl).symm]
  refine Finset.sum_congr rfl fun k _ => ?_
  have hk := contrEquiv1_symm_val dot_S40000x128_S128x47_S40000x47_1_0_0_1_n_n 128 rfl rfl k
  have el : dot_S40000x128_S128x47_S40000x47_1_0_0_1_n_n.lhsIdx (ix2 r j)
      ((contrEquiv1 dot_S40000x128_S128x47_S40000x47_1_0_0_1_n_n 128 rfl rfl).symm k) = ix2 r k :=
    funext fun a => Fin.ext (by
      match a with
      | ⟨0, _⟩ => exact Cert.ReferenceIdeal.Read.lhs_main_v71_0 _ _
      | ⟨1, _⟩ => exact (Cert.ReferenceIdeal.Read.lhs_main_v71_1 _ _).trans hk)
  have er : dot_S40000x128_S128x47_S40000x47_1_0_0_1_n_n.rhsIdx (ix2 r j)
      ((contrEquiv1 dot_S40000x128_S128x47_S40000x47_1_0_0_1_n_n 128 rfl rfl).symm k) = ix2 k j :=
    funext fun a => Fin.ext (by
      match a with
      | ⟨0, _⟩ => exact (Cert.ReferenceIdeal.Read.rhs_main_v71_0 _ _).trans hk
      | ⟨1, _⟩ => exact Cert.ReferenceIdeal.Read.rhs_main_v71_1 _ _)
  rw [el, er]

/-- A bias vector of width 47 broadcast along the rows reads its entry at the column. -/
theorem biasRows47_apply (b : FVec Ideal S47 .f32) (r : Fin 40000) (j : Fin 47) :
    broadcastInDim S40000x47 ![0, 1] bcast_S1x47_S40000x47_0_1
        (broadcastInDim S1x47 ![1] bcast_S47_S1x47_1 b) (ix2 r j) = b (ix1 j) := by
  refine (broadcastInDim_apply _ bcast_S1x47_S40000x47_0_1 _ (ix2 r j) (ix2 0 j) (fun a => match a with
    | ⟨0, _⟩ => by show 0 = if (1 : Nat) = 1 then 0 else r.val; rw [if_pos rfl]
    | ⟨1, _⟩ => by show j.val = if (47 : Nat) = 1 then 0 else j.val; rw [if_neg (by decide)])).trans ?_
  exact broadcastInDim_apply _ bcast_S47_S1x47_1 b (ix2 0 j) (ix1 j) (fun a => match a with
    | ⟨0, _⟩ => by show j.val = if (47 : Nat) = 1 then 0 else j.val; rw [if_neg (by decide)])

/-- The last layer, as the reference spells it, is the shared layer function at width 47. -/
theorem refLayer47_eq (h : FVec Ideal S40000x128 .f32) (src dst : IVec S640000 32)
    (Ws Wn : FVec Ideal S128x47 .f32) (b : FVec Ideal S47 .f32) :
    refLayer47 h src dst Ws Wn b
      = Cert.Sage.layer (d := 47) h (aggR h src dst) (scaleR dst) Ws Wn (rowR47 b) := by
  funext i
  obtain ⟨r, j, rfl⟩ : ∃ (r : Fin 40000) (j : Fin 47), i = ix2 r j := ⟨i 0, i 1, eq_ix2 i⟩
  unfold refLayer47
  rw [addf_apply, addf_apply, dot47_apply, dot47_apply, biasRows47_apply]
  rw [Finset.sum_congr rfl fun k _ => congrArg (· * Wn (ix2 k j)) (quot_apply (aggR h src dst) dst r k)]
  rfl

/-- The maximum of a layer with the broadcast zero is the layer followed by the rectifier. -/
theorem relu_layer (h agg : FVec Ideal S40000x128 .f32) (s : FVec Ideal S40000x1 .f32)
    (Ws Wn : FVec Ideal S128x128 .f32) (b : FVec Ideal S1x128 .f32) :
    maximumf (Cert.Sage.layer (d := 128) h agg s Ws Wn b) zeros
      = Cert.Sage.layerRelu (d := 128) h agg s Ws Wn b := by
  funext i
  unfold zeros
  rw [maximumf_apply, broadcastInDim_scalar_apply, constant_apply, Ideal.ofBits_zero_f32]
  rfl

/-! ## The reference's result -/

/-- The reference's result is the three-layer network of the shared layer functions at the argument arrays. -/
theorem ref_value (m : (ℓ : Loc nD τ sig) → Buf (Elt Ideal) ℓ) (c : Dev nD) :
    Cert.ReferenceIdeal.Value.res_main_v76 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11)) := by
  rw [res_fold m c]
  simp only [refLayer128_eq, relu_layer, refLayer47_eq]
  rfl

end Cert.ReferenceIdeal.RefGlue

end
-- ==== Proof.KernelTake.lean ====
/-
  The fill-mode row take is the plain row gather when every source index names a node.

  The take keeps a gathered row where the row's start index, after negative entries are counted from the
  end, lies in [0, 39999], and writes the fill pattern elsewhere. Under the range hypothesis
  0 ≤ src[e] < 40000 (signed) no entry is negative, so the wrapped column is the source column itself;
  each of its entries passes both bounds, the conjunction over the column's single entry is 1 at every
  edge, its broadcast along the rows is 1 everywhere, and a select on a set bit is its first operand.
-/
import proofs.«424202_j8555574854331_2_alg».proof.Proof.KernelHost
import Idealize.ShloMosaic.Lib.ValueIdx
import Idealize.ShloMosaic.Lib.StableHlo.Predicate
import Idealize.ShloMosaic.Lib.ReduceAll

noncomputable section

namespace Cert.KernelIdeal.Glue

open Cert.KernelIdeal Cert.KernelIdeal.Gen Idealize.ShloMosaic Idealize.ShloMosaic.ValueIdx

variable {F : FTy → Type} [FloatOps F]

/-- Every source index, read as a signed 32-bit integer, names a node: it lies in [0, 40000). -/
def InRange (src : IVec S640000 32) : Prop :=
  ∀ k : S640000.Idx, 0 ≤ (src k).toInt ∧ (src k).toInt < 40000

/-- A left fold by `and` from 1 over one-bit words that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_one f l fun n hn => h n (List.mem_cons_of_mem _ hn)

/-- A reduction by `and` from the constant 1 of a mask that is 1 at every index is 1 at every result index. -/
theorem reduce_andi_of_all {s t u : Shape} {axes : List (Fin s.rank)} (x : s.Idx → BitVec 1)
    (h : s.ReducesTo axes t) (hu : 0 < u.numel) (hx : ∀ i, x i = 1#1) (j : t.Idx) :
    Host.reduce IntOp.andi x (constantI u 1 1#1) h hu j = 1#1 := by
  rw [Host.reduce_eq_foldl]
  exact foldl_andi_one x _ fun n _ => hx n

/-- A word in [0, 40000) is not below zero (signed). -/
theorem word_not_neg (w : BitVec 32) (h0 : 0 ≤ w.toInt) : ¬ IntOp.cmpi .slt w 0#32 = 1#1 := by
  rw [IntOp.cmpi_slt]
  have e : (0#32 : BitVec 32).toInt = 0 := by decide
  omega

/-- A word in [0, 40000) passes both bounds of the test 0 ≤ w ≤ 39999 (signed). -/
theorem word_inRange (w : BitVec 32) (h0 : 0 ≤ w.toInt) (h1 : w.toInt < 40000) :
    IntOp.andi (IntOp.cmpi .sge w 0#32) (IntOp.cmpi .sle w 39999#32) = 1#1 := by
  rw [IntOp.andi_eq_one, IntOp.cmpi_sge, IntOp.cmpi_sle]
  have e0 : (0#32 : BitVec 32).toInt = 0 := by decide
  have e1 : (39999#32 : BitVec 32).toInt = 39999 := by decide
  omega

/-- Under the range hypothesis no entry is negative: the wrapped column is the source column itself. -/
theorem wrapIdx_eq (src : IVec S640000 32) (hs : InRange src) :
    wrapIdx src = broadcastInDim S640000x1 ![0] bcast_S640000_S640000x1_0 src := by
  unfold wrapIdx
  congr 1
  funext k
  rw [select_apply]
  exact if_neg (word_not_neg (src k) (hs k).1)

/-- Under the range hypothesis every edge's start index passes the range test. -/
theorem inRange_wrapIdx (src : IVec S640000 32) (hs : InRange src) (k : S640000.Idx) :
    inRange (wrapIdx src) k = 1#1 := by
  unfold inRange
  apply reduce_andi_of_all
  intro i
  rw [wrapIdx_eq src hs]
  exact word_inRange _ (hs _).1 (hs _).2

/-- With every source index in range the fill-mode take is the row gather at the wrapped indices. -/
theorem takeFill_eq_rowsOf (h : FVec F S40000x128 .f32) (src : IVec S640000 32) (hs : InRange src) :
    takeFill h src = rowsOf h (wrapIdx src) := by
  funext i
  unfold takeFill
  rw [select_apply]
  have hm : broadcastInDim S640000x128 ![0] bcast_S640000_S640000x128_0 (inRange (wrapIdx src)) i = 1#1 :=
    inRange_wrapIdx src hs _
  rw [hm]
  exact select_one _ _

end Cert.KernelIdeal.Glue

end
-- ==== Proof.PreRange.lean ====
/-
  The statement's precondition gives the range hypothesis on the source index.

  The precondition is one bit: the conjunction of the finiteness tests of the float inputs with two tests
  of the source index, "every entry is at least 0" and "every entry is below 40000" (signed), each an
  `and`-reduction over all 640000 entries from the constant 1. If the bit is 1, both reductions are 1, so
  each compared entry is 1, and a signed comparison that is 1 is the inequality between the signed values.
-/
import proofs.«424202_j8555574854331_2_alg».proof.Proof.Gen.Pre_finite_inputs
import proofs.«424202_j8555574854331_2_alg».proof.Proof.KernelTake
import Idealize.ShloMosaic.Lib.ReduceAll

noncomputable section

namespace Cert.PreRange

open Idealize.ShloMosaic Idealize.ShloMosaic.ValueIdx
open Cert.Pre_finite_inputs

variable {F : FTy → Type} [FloatOps F]

/-- The scalar shape has one index. -/
instance : Subsingleton S_.Idx := ⟨fun a b => funext fun d => d.elim0⟩

/-- If the precondition holds, every source index lies in [0, 40000) as a signed integer. -/
theorem src_inRange (a0 : FVec F S40000x128 .f32) (src : IVec S640000 32) (a2 : IVec S640000 32)
    (a3 a4 : FVec F S128x128 .f32) (a5 : FVec F S128 .f32) (a6 a7 : FVec F S128x128 .f32) (a8 : FVec F S128 .f32)
    (a9 a10 : FVec F S128x47 .f32) (a11 : FVec F S47 .f32)
    (hpre : Cert.Pre_finite_inputs.fn (F := F) a0 src a2 a3 a4 a5 a6 a7 a8 a9 a10 a11 = fun _ => 1#1) :
    Cert.KernelIdeal.Glue.InRange src := by
  have h := congrFun hpre ix0
  dsimp only [fn, fn_part1, fn_part2, fn_part3] at h
  have h' : IntOp.andi (IntOp.andi _ _) _ = 1#1 := h
  obtain ⟨h12, h2⟩ := IntOp.andi_eq_one.1 h'
  obtain ⟨-, h1⟩ := IntOp.andi_eq_one.1 h12
  intro k
  have g1 := Host.reduce_andi_all _ _ _ _ _ h1 k
  have g2 := Host.reduce_andi_all _ _ _ _ _ h2 k
  have g1' : IntOp.cmpi .sge (src k) 0#32 = 1#1 := g1
  have g2' : IntOp.cmpi .slt (src k) 40000#32 = 1#1 := g2
  rw [IntOp.cmpi_sge] at g1'
  rw [IntOp.cmpi_slt] at g2'
  have e0 : (0#32 : BitVec 32).toInt = 0 := by decide
  have e1 : (40000#32 : BitVec 32).toInt = 40000 := by decide
  exact ⟨by omega, by omega⟩

/-- Under the precondition the fill-mode take of any node array is its row gather at the wrapped indices. -/
theorem takeFill_of_pre (a0 : FVec F S40000x128 .f32) (src : IVec S640000 32) (a2 : IVec S640000 32)
    (a3 a4 : FVec F S128x128 .f32) (a5 : FVec F S128 .f32) (a6 a7 : FVec F S128x128 .f32) (a8 : FVec F S128 .f32)
    (a9 a10 : FVec F S128x47 .f32) (a11 : FVec F S47 .f32)
    (hpre : Cert.Pre_finite_inputs.fn (F := F) a0 src a2 a3 a4 a5 a6 a7 a8 a9 a10 a11 = fun _ => 1#1)
    (h : FVec F S40000x128 .f32) :
    Cert.KernelIdeal.Glue.takeFill h src = Cert.KernelIdeal.Glue.rowsOf h (Cert.KernelIdeal.Glue.wrapIdx src) :=
  Cert.KernelIdeal.Glue.takeFill_eq_rowsOf h src (src_inRange a0 src a2 a3 a4 a5 a6 a7 a8 a9 a10 a11 hpre)

end Cert.PreRange

end
-- ==== Proof.Bridge.lean ====
/-
  The two programs' networks are one function of the arguments. Layer by layer they apply the same shared layer
  function (Spec) to: the layer's input, its aggregate, the scale column and the bias row. So it is enough that those
  four agree:
  * the aggregate — both scatter-add, into the destination rows, the rows gathered at the wrapped source index;
    the kernel's take additionally replaces a row whose index is out of range, and none is when every source
    index lies in [0, 40000);
  * the scale column — the reciprocal of the clipped in-degree, computed as a vector and then viewed as a column on
    one side, read off the clipped degree at the node on the other;
  * the bias row — the bias vector viewed as a one-row matrix on one side, read at the column on the other.
-/
import proofs.«424202_j8555574854331_2_alg».proof.Proof.KernelTake
import proofs.«424202_j8555574854331_2_alg».proof.Proof.RefValue
import proofs.«424202_j8555574854331_2_alg».proof.Proof.NetC
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.Bridge

open Idealize.ShloMosaic Idealize.ShloMosaic.ValueIdx Idealize.SL.Sem

/-- With every source index in range the two aggregates are one array. -/
theorem agg_eq (h : FVec Ideal Cert.KernelIdeal.S40000x128 .f32) (src dst : IVec Cert.KernelIdeal.S640000 32)
    (hs : Cert.KernelIdeal.Glue.InRange src) :
    Cert.KernelIdeal.Glue.aggOf (F := Ideal) h src dst = Cert.ReferenceIdeal.RefGlue.aggR h src dst := by
  unfold Cert.KernelIdeal.Glue.aggOf
  rw [Cert.KernelIdeal.Glue.takeFill_eq_rowsOf h src hs]
  rfl

/-- The scale column: the vector `1 / max(deg, 1)` viewed as a column is, at node `r`, `1 / max(deg r, 1)`. -/
theorem scale_eq (dst : IVec Cert.KernelIdeal.S640000 32) :
    Cert.KernelIdeal.Glue.scaleCol (F := Ideal) dst = Cert.ReferenceIdeal.RefGlue.scaleR dst := by
  funext i
  obtain ⟨r, z, rfl⟩ : ∃ (r : Fin 40000) (z : Fin 1), i = ix2 r z := ⟨i 0, i 1, eq_ix2 i⟩
  unfold Cert.KernelIdeal.Glue.scaleCol
  rw [shapeCast_apply _ _ (ix2 r z) (ix1 r) (by
    rw [Shape.rowMajor_val_one, Shape.rowMajor_val_two]
    show r.val = r.val * 1 + z.val
    omega)]
  rw [hostDivf_apply, broadcastInDim_scalar_apply, constant_apply, Ideal.ofBits_one_f32]
  rfl

/-- The bias row of width 128. -/
theorem bias_eq (b : FVec Ideal Cert.KernelIdeal.S128 .f32) :
    Cert.KernelIdeal.Glue.biasRow (F := Ideal) b = Cert.ReferenceIdeal.RefGlue.rowR b := by
  funext i
  obtain ⟨u, j, rfl⟩ : ∃ (u : Fin 1) (j : Fin 128), i = ix2 u j := ⟨i 0, i 1, eq_ix2 i⟩
  unfold Cert.KernelIdeal.Glue.biasRow
  rw [shapeCast_a_1a_apply]
  rfl

/-- The bias row of width 47. -/
theorem bias47_eq (b : FVec Ideal Cert.KernelIdeal.S47 .f32) :
    Cert.KernelIdeal.Glue.biasRow47 (F := Ideal) b = Cert.ReferenceIdeal.RefGlue.rowR47 b := by
  funext i
  obtain ⟨u, j, rfl⟩ : ∃ (u : Fin 1) (j : Fin 47), i = ix2 u j := ⟨i 0, i 1, eq_ix2 i⟩
  unfold Cert.KernelIdeal.Glue.biasRow47
  rw [shapeCast_a_1a_apply]
  rfl

open Cert.KernelIdeal in
/-- The kernel's network output is the shared network of its argument arrays, when every source index is in range. -/
theorem net_eq (m : (ℓ : Loc nD τ sig) → Buf (Elt Ideal) ℓ) (c : Dev nD)
    (hs : Cert.KernelIdeal.Glue.InRange (m ((c.tc : Thread nD τ).loc main_arg1))) :
    Cert.KernelIdeal.NetC.H3 m c
      = Cert.ReferenceIdeal.RefGlue.net (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) := by
  unfold Cert.KernelIdeal.NetC.H3 Cert.KernelIdeal.NetB.H2 Cert.KernelIdeal.NetA.H1 Cert.ReferenceIdeal.RefGlue.net
  simp only [agg_eq _ _ _ hs, scale_eq, bias_eq, bias47_eq]

end Cert.Bridge

end
-- ==== Proof.lean ====
/-
  A three-layer mean-aggregation graph network over 40000 nodes and 640000 edges: per layer, every node's new
  features are  h · W_self + (mean of the source features over the edges that end at the node) · W_neigh + b,
  rectified after the first two layers; the widths are 128, 128, 47.

  The kernel's program computes each layer's combine step in a launch over ten row blocks of 4000 nodes — two
  products accumulated from zero, the aggregate scaled by the reciprocal clipped in-degree before the second — and
  the aggregation itself (row take at the source index, accumulating scatter to the destination index) on the host
  between the launches. The reference computes the same with whole-array host operations, dividing the aggregate by the
  clipped in-degree instead of multiplying by its reciprocal.

  Over the extended reals the two are one function of the arguments:
  * a block of the launch's output is the shared layer function restricted to the block, and the ten blocks tile the
    array (Region0–2), each launch's inputs read back through the host operations before it (WalkA–C, NetA–C);
  * the reference's run is the same shared layer function three times (RefValue), because a quotient by the clipped
    in-degree — a maximum with one, so never zero — is the product with its reciprocal at every extended real, the
    infinities included; nothing finite is needed of the float inputs;
  * the kernel's row take replaces a row whose source index is out of range by a fill pattern where the reference
    reads a clamped row: under the precondition's index range, 0 ≤ src < 40000, no row is replaced (KernelTake,
    PreRange), and the aggregates, the scale column and the bias rows of the two sides agree (Bridge).
  The three frames are the generated ones (the reference's from its generated run); no rewrite was applied to the
  kernel, so `preserves` is trivial.
-/
import proofs.«424202_j8555574854331_2_alg».proof.Defs
import proofs.«424202_j8555574854331_2_alg».proof.Proof.Gen.Kernel
import proofs.«424202_j8555574854331_2_alg».proof.Proof.Gen.Kernel.Skeleton
import proofs.«424202_j8555574854331_2_alg».proof.Proof.Gen.Kernel.Launch
import proofs.«424202_j8555574854331_2_alg».proof.Proof.Gen.Kernel.Points
import proofs.«424202_j8555574854331_2_alg».proof.Proof.Gen.Kernel.Frame
import proofs.«424202_j8555574854331_2_alg».proof.Proof.Gen.KernelIdeal
import proofs.«424202_j8555574854331_2_alg».proof.Proof.Gen.KernelIdeal.Skeleton
import proofs.«424202_j8555574854331_2_alg».proof.Proof.Gen.KernelIdeal.Launch
import proofs.«424202_j8555574854331_2_alg».proof.Proof.Gen.KernelIdeal.Points
import proofs.«424202_j8555574854331_2_alg».proof.Proof.Gen.KernelIdeal.Frame
import proofs.«424202_j8555574854331_2_alg».proof.Proof.Gen.ReferenceIdeal
import proofs.«424202_j8555574854331_2_alg».proof.Proof.Gen.Pre_finite_inputs
import proofs.«424202_j8555574854331_2_alg».proof.Proof.Gen.ReferenceIdeal.Run
import proofs.«424202_j8555574854331_2_alg».proof.Proof.Gen.ReferenceIdeal.Read
import proofs.«424202_j8555574854331_2_alg».proof.Proof.RunResult
import proofs.«424202_j8555574854331_2_alg».proof.Proof.NetC
import proofs.«424202_j8555574854331_2_alg».proof.Proof.RefValue
import proofs.«424202_j8555574854331_2_alg».proof.Proof.PreRange
import proofs.«424202_j8555574854331_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no launch: its frame is its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network's output of the (agreeing) arguments: the kernel's result buffer holds it at
    the last segment boundary, and the reference's closed term is the same network, the source indices being in
    range by the precondition. -/
theorem algebraic : Cert.algebraic_KernelIdeal_ReferenceIdeal := by
  intro m ρ m' ρ' hpre hagree
  refine ⟨fun c => Cert.KernelIdeal.NetC.H3 m c, ?_, ?_⟩
  · exact (θ_run Cert.KernelIdeal.defs _ _).mono
      (fun r h c => ⟨(h c).1.trans (Cert.KernelIdeal.NetC.result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.RefGlue.ref_value m' c, h0, h1, h2, h3, h4, h5, h6, h7, h8, h9, h10, h11]
    exact (Cert.Bridge.net_eq m c (Cert.PreRange.src_inRange _ _ _ _ _ _ _ _ _ _ _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
